-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S128x64 .f32) (main_arg3 : FVec F S128 .f32) (main_arg4 : FVec F S128x64 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S64x128 : Shape := ⟨2, ![64, 128]⟩
abbrev S800000x64 : Shape := ⟨2, ![800000, 64]⟩
abbrev S50000x1 : Shape := ⟨2, ![50000, 1]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩
abbrev S2000 : Shape := ⟨1, ![2000]⟩
abbrev S2000x1 : Shape := ⟨2, ![2000, 1]⟩
abbrev S800000x128 : Shape := ⟨2, ![800000, 128]⟩

abbrev nBuf : Space → Nat
  | .hbm => 87
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S64x128, .f32⟩
  | .hbm, ⟨28, _⟩ => ⟨S64x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S128x64_S64x128_1_0 : S128x64.Transposes [1, 0] S64x128
  transposes_S128x128_S128x128_1_0 : S128x128.Transposes [1, 0] S128x128
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v30) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S64x128 : Shape := ⟨2, ![64, 128]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 150
  | .vmem => 0
  | .smem => 0
  | _ => 0

abbrev hbmTy0_0 (i : Nat) : BufTy := match i % 128 with
  | 0 => ⟨S50000x64, .f32⟩
  | 1 => ⟨S2x800000, .i32⟩
  | 2 => ⟨S128x64, .f32⟩
  | 3 => ⟨S128, .f32⟩
  | 4 => ⟨S128x64, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x64, .f32⟩
  | 39 => ⟨S50000x64, .f32⟩
  | 40 => ⟨S64x128, .f32⟩
  | 41 => ⟨S50000x128, .f32⟩
  | 42 => ⟨S1x128, .f32⟩
  | 43 => ⟨S50000x128, .f32⟩
  | 44 => ⟨S50000x128, .f32⟩
  | 45 => ⟨S64x128, .f32⟩
  | 46 => ⟨S50000x128, .f32⟩
  | 47 => ⟨S50000x128, .f32⟩
  | 48 => ⟨S50000x128, .f32⟩
  | 49 => ⟨S_, .f32⟩
  | 50 => ⟨S50000, .f32⟩
  | 51 => ⟨S50000x1, .f32⟩
  | 52 => ⟨S50000x1, .f32⟩
  | 53 => ⟨S_, .f32⟩
  | 54 => ⟨S50000x1, .f32⟩
  | 55 => ⟨S50000x1, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S128x128, .f32⟩
  | 87 => ⟨S50000x128, .f32⟩
  | 88 => ⟨S1x128, .f32⟩
  | 89 => ⟨S50000x128, .f32⟩
  | 90 => ⟨S50000x128, .f32⟩
  | 91 => ⟨S128x128, .f32⟩
  | 92 => ⟨S50000x128, .f32⟩
  | 93 => ⟨S50000x128, .f32⟩
  | 94 => ⟨S50000x128, .f32⟩
  | 95 => ⟨S_, .f32⟩
  | 96 => ⟨S50000, .f32⟩
  | 97 => ⟨S50000x1, .f32⟩
  | 98 => ⟨S50000x1, .f32⟩
  | 99 => ⟨S_, .f32⟩
  | 100 => ⟨S50000x1, .f32⟩
  | 101 => ⟨S50000x1, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S_, .f32⟩
  | 121 => ⟨S800000, .f32⟩
  | 122 => ⟨S_, .f32⟩
  | 123 => ⟨S50000, .f32⟩
  | 124 => ⟨S800000x1, .i32⟩
  | 125 => ⟨S50000, .f32⟩
  | 126 => ⟨S_, .f32⟩
  | 127 => ⟨S50000, .f32⟩
  | _ => ⟨S50000x64, .f32⟩

abbrev hbmTy0_1 (i : Nat) : BufTy := match i % 128 with
  | 0 => ⟨S50000, .f32⟩
  | 1 => ⟨S50000x1, .f32⟩
  | 2 => ⟨S50000x128, .f32⟩
  | 3 => ⟨S50000x128, .f32⟩
  | 4 => ⟨S128x128, .f32⟩
  | 5 => ⟨S50000x128, .f32⟩
  | 6 => ⟨S1x128, .f32⟩
  | 7 => ⟨S50000x128, .f32⟩
  | 8 => ⟨S50000x128, .f32⟩
  | 9 => ⟨S128x128, .f32⟩
  | 10 => ⟨S50000x128, .f32⟩
  | 11 => ⟨S50000x128, .f32⟩
  | 12 => ⟨S50000x128, .f32⟩
  | 13 => ⟨S_, .f32⟩
  | 14 => ⟨S50000, .f32⟩
  | 15 => ⟨S50000x1, .f32⟩
  | 16 => ⟨S50000x1, .f32⟩
  | 17 => ⟨S_, .f32⟩
  | 18 => ⟨S50000x1, .f32⟩
  | 19 => ⟨S50000x1, .f32⟩
  | 20 => ⟨S50000x128, .f32⟩
  | 21 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_call0_v2 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_cst : Ref sig .tc := ⟨.hbm, 58, rfl⟩
abbrev main_call1_v0 : Ref sig .tc := ⟨.hbm, 59, rfl⟩
abbrev main_v36 : Ref sig .tc := ⟨.hbm, 60, rfl⟩
abbrev main_c_5 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call2_v0 : Ref sig .tc := ⟨.hbm, 94, rfl⟩
abbrev main_call2_cst : Ref sig .tc := ⟨.hbm, 95, rfl⟩
abbrev main_call2_v1 : Ref sig .tc := ⟨.hbm, 96, rfl⟩
abbrev main_call2_v2 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call3_cst : Ref sig .tc := ⟨.hbm, 104, rfl⟩
abbrev main_call3_v0 : Ref sig .tc := ⟨.hbm, 105, rfl⟩
abbrev main_v69 : Ref sig .tc := ⟨.hbm, 106, rfl⟩
abbrev main_c_12 : Ref sig .tc := ⟨.hbm, 107, rfl⟩
abbrev main_v70 : Ref sig .tc := ⟨.hbm, 108, rfl⟩
abbrev main_v71 : Ref sig .tc := ⟨.hbm, 109, rfl⟩
abbrev main_c_13 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_14 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_15 : Ref sig .tc := ⟨.hbm, 120, rfl⟩
abbrev main_v80 : Ref sig .tc := ⟨.hbm, 121, rfl⟩
abbrev main_cst_16 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_call4_v0 : Ref sig .tc := ⟨.hbm, 140, rfl⟩
abbrev main_call4_cst : Ref sig .tc := ⟨.hbm, 141, rfl⟩
abbrev main_call4_v1 : Ref sig .tc := ⟨.hbm, 142, rfl⟩
abbrev main_call4_v2 : Ref sig .tc := ⟨.hbm, 143, rfl⟩
abbrev main_v97 : Ref sig .tc := ⟨.hbm, 144, rfl⟩
abbrev main_cst_18 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One layer of the mean-aggregation graph convolution, row by row, over the extended reals.

  A node's output row depends only on that node's aggregated-mean row `a` and its own feature row `h`:
  the pre-activation is `pre j = (∑ₖ a k · wl k j + ∑ₖ h k · wr k j) + b j`, its Euclidean norm is clamped from
  below by the literal ε, the row is divided by that, and the hidden layers clamp the quotient from below by zero.
  The two programs differ in how they group the three summands of `pre` (commutativity and associativity of
  the extended reals' addition) and in how the mean is formed: a product with the reciprocal of the clamped
  in-degree on one side, a quotient by it on the other. The clamped in-degree is at least one, hence not zero, and
  off zero the quotient IS the product with the inverse.
-/
import Idealize.ShloMosaic.PureOps.Ideal
import Idealize.ShloMosaic.Lib.ValueIdx

noncomputable section

namespace Sage

open Idealize.ShloMosaic

/-- The pre-activation of one output row: both matrix products and the bias. -/
def preRow (D : ℕ) (a h : Fin D → EReal) (wl wr : Fin D → Fin 128 → EReal) (b : Fin 128 → EReal) (j : Fin 128) : EReal :=
  ((∑ k : Fin D, a k * wl k j) + (∑ k : Fin D, h k * wr k j)) + b j

/-- The row's Euclidean norm, clamped from below by the literal ε (the word both programs print). -/
def normRow (pre : Fin 128 → EReal) : EReal :=
  max (Ideal.sqrt (∑ j : Fin 128, pre j * pre j)) (Ideal.ofBits .f32 0x2B8CBCCC#32)

/-- The normalized row (the last layer's output). -/
def linRow (D : ℕ) (a h : Fin D → EReal) (wl wr : Fin D → Fin 128 → EReal) (b : Fin 128 → EReal) (q : Fin 128) : EReal :=
  Ideal.div (preRow D a h wl wr b q) (normRow (preRow D a h wl wr b))

/-- The normalized row clamped from below by zero (a hidden layer's output). -/
def reluRow (D : ℕ) (a h : Fin D → EReal) (wl wr : Fin D → Fin 128 → EReal) (b : Fin 128 → EReal) (q : Fin 128) : EReal :=
  max (linRow D a h wl wr b q) (Ideal.ofBits .f32 0x00000000#32)

/-- A hidden layer on 64 input features, whole arrays: row `i 0` of the result from row `i 0` of the mean and of the
    features. The weights arrive already transposed (`wl k j` multiplies input feature `k` into output feature `j`). -/
def reluLayer64 (a h : FVec Ideal (⟨2, ![50000, 64]⟩ : Shape) .f32) (wl wr : FVec Ideal (⟨2, ![64, 128]⟩ : Shape) .f32)
    (b : Fin 128 → EReal) : FVec Ideal (⟨2, ![50000, 128]⟩ : Shape) .f32 :=
  fun i => reluRow 64 (fun k => a (ValueIdx.ix2 (i 0) k)) (fun k => h (ValueIdx.ix2 (i 0) k))
    (fun k j => wl (ValueIdx.ix2 k j)) (fun k j => wr (ValueIdx.ix2 k j)) b (i 1)

/-- A hidden layer on 128 input features. -/
def reluLayer128 (a h : FVec Ideal (⟨2, ![50000, 128]⟩ : Shape) .f32) (wl wr : FVec Ideal (⟨2, ![128, 128]⟩ : Shape) .f32)
    (b : Fin 128 → EReal) : FVec Ideal (⟨2, ![50000, 128]⟩ : Shape) .f32 :=
  fun i => reluRow 128 (fun k => a (ValueIdx.ix2 (i 0) k)) (fun k => h (ValueIdx.ix2 (i 0) k))
    (fun k j => wl (ValueIdx.ix2 k j)) (fun k j => wr (ValueIdx.ix2 k j)) b (i 1)

/-- The last layer on 128 input features: no clamp at zero. -/
def linLayer128 (a h : FVec Ideal (⟨2, ![50000, 128]⟩ : Shape) .f32) (wl wr : FVec Ideal (⟨2, ![128, 128]⟩ : Shape) .f32)
    (b : Fin 128 → EReal) : FVec Ideal (⟨2, ![50000, 128]⟩ : Shape) .f32 :=
  fun i => linRow 128 (fun k => a (ValueIdx.ix2 (i 0) k)) (fun k => h (ValueIdx.ix2 (i 0) k))
    (fun k j => wl (ValueIdx.ix2 k j)) (fun k j => wr (ValueIdx.ix2 k j)) b (i 1)

/-- The other grouping of the pre-activation's three summands gives the same row. -/
theorem preRow_regroup (D : ℕ) (a h : Fin D → EReal) (wl wr : Fin D → Fin 128 → EReal) (b : Fin 128 → EReal) :
    (fun j => ((∑ k : Fin D, a k * wl k j) + b j) + (∑ k : Fin D, h k * wr k j)) = preRow D a h wl wr b := by
  funext j
  unfold preRow
  exact add_right_comm _ _ _

/-- A clamp from below by one is not zero. -/
theorem max_one_ne_zero (x : EReal) : max x 1 ≠ 0 := by
  have h : (0 : EReal) < max x 1 := lt_of_lt_of_le zero_lt_one (le_max_right x 1)
  exact ne_of_gt h

/-- Off zero, the product with the reciprocal is the quotient. -/
theorem mul_div_one (a c : EReal) (hc : c ≠ 0) : a * Ideal.div 1 c = Ideal.div a c := by
  unfold Ideal.div
  rw [if_neg hc, if_neg hc, one_mul]

end Sage

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KBody0.lean ====
import proofs.«179428_j33517924778074_1_alg».proof.Proof.Gen.KernelIdeal.Skeleton
import proofs.«179428_j33517924778074_1_alg».proof.Proof.Spec
import proofs.«179428_j33517924778074_1_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

namespace Layer0

/-! ## Two column forms of the layout operations, read at an index -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first layer's matrix product: where its dimension numbers read the operands -/

theorem dot64_lhs0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem dot64_lhs1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem dot64_rhs0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem dot64_rhs1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- Entry (r, q) of the product of a 2000 × 64 block and a 64 × 128 matrix into zero: the sum over the 64 input features. -/
theorem mm64_at (l : FVec Ideal S2000x64 .bf16) (w : FVec Ideal S64x128 .bf16) (r : Fin 2000) (q : Fin 128) :
    matmul dot_S2000x64_S64x128_S2000x128_1_0_0_1_n_n none l w (constant (F := Ideal) S2000x128 .f32 0x00000000#32) (ix2 r q)
      = ∑ k : Fin 64, l (ix2 r k) * w (ix2 k q) :=
  Idealize.ShloMosaic.MatmulAt.matmul_zero_at (A := 2000) (K := 64) (B := 128) dot_S2000x64_S64x128_S2000x128_1_0_0_1_n_n rfl rfl
    dot64_lhs0 dot64_lhs1 dot64_rhs0 dot64_rhs1 none l w r q

/-- The sum along the lanes of a 2000 × 128 block, read at row `r`. -/
theorem rowsum_at (src : FVec Ideal S2000x128 .f32) (hφ : FKind.Formats .f32)
    (hacc : (0x00000000#32 : BitVec 32) = FKind.add.neutral .f32 hφ) (r : Fin 2000) :
    multiReduction .add [1] S2000 src 0x00000000#32 reduces_S2000x128_S2000 hφ hacc (ix1 r) = ∑ k : Fin 128, src (ix2 r k) := by
  refine (Ideal.multiReduction_add_single src _ reduces_S2000x128_S2000 hφ hacc (ix1 r)).trans ?_
  refine Finset.sum_congr rfl fun k _ => congrArg src ?_
  funext a
  match a with
  | ⟨0, _⟩ => rfl
  | ⟨1, _⟩ => rfl

/-! ## The first layer's body, operation by operation -/

/-- The pre-activation block: both matrix products and the bias row broadcast over the rows. -/
def pre0 (x0 x1 : Vec Ideal S2000x64 .f32) (x2 x3 : Vec Ideal S64x128 .f32) (x4 : Vec Ideal S1x128 .f32) :
    FVec Ideal S2000x128 .f32 :=
  addf
    (addf
      (matmul dot_S2000x64_S64x128_S2000x128_1_0_0_1_n_n none
        (truncf .bf16 (shapeCast S2000x64 x0 shapeCasts_S2000x64_S2000x64) bitsLt_bf16_f32)
        (truncf .bf16 (shapeCast S64x128 x2 shapeCasts_S64x128_S64x128) bitsLt_bf16_f32)
        (constant S2000x128 .f32 0x00000000#32))
      (matmul dot_S2000x64_S64x128_S2000x128_1_0_0_1_n_n none
        (truncf .bf16 x1 bitsLt_bf16_f32)
        (truncf .bf16 (shapeCast S64x128 x3 shapeCasts_S64x128_S64x128) bitsLt_bf16_f32)
        (constant S2000x128 .f32 0x00000000#32)))
    (broadcastTo S2000x128 (shapeCast S1x128 x4 shapeCasts_S1x128_S1x128) broadcasts_S1x128_S2000x128)

/-- The clamped row norms, one column: the root of the lane sum of squares, clamped from below by ε. -/
def nrm0 (p : FVec Ideal S2000x128 .f32) : FVec Ideal S2000x1 .f32 :=
  maximumf
    (sqrt (shapeCast S2000x1 (multiReduction .add [1] S2000 (mulf p p) 0x00000000#32 reduces_S2000x128_S2000 (.inl rfl) rfl)
      shapeCasts_S2000_S2000x1))
    (broadcast S2000x1 (Scalar.ofBits .f32 0x2B8CBCCC#32))

/-- The stored block is the quotient of the pre-activation by its row norms, clamped from below by zero. -/
theorem pay0_eq (x0 x1 : Vec Ideal S2000x64 .f32) (x2 x3 : Vec Ideal S64x128 .f32) (x4 : Vec Ideal S1x128 .f32) :
    k0_pay1 (F := Ideal) x0 x1 x2 x3 x4
      = maximumf (divf (pre0 x0 x1 x2 x3 x4) (broadcastTo S2000x128 (nrm0 (pre0 x0 x1 x2 x3 x4)) broadcasts_S2000x1_S2000x128))
          (broadcast S2000x128 (Scalar.ofBits .f32 0x00000000#32)) := rfl

/-- The pre-activation at (r, j): row `r` of the mean and of the features against column `j` of the two weight matrices, plus the bias. -/
theorem pre0_at (x0 x1 : Vec Ideal S2000x64 .f32) (x2 x3 : Vec Ideal S64x128 .f32) (x4 : Vec Ideal S1x128 .f32)
    (r : Fin 2000) (j : Fin 128) :
    pre0 x0 x1 x2 x3 x4 (ix2 r j)
      = Sage.preRow 64 (fun k => x0 (ix2 r k)) (fun k => x1 (ix2 r k)) (fun k j => x2 (ix2 k j)) (fun k j => x3 (ix2 k j))
          (fun j => x4 (ix2 (0 : Fin 1) j)) j := by
  unfold pre0 Sage.preRow
  refine congrArg₂ (· + ·) (congrArg₂ (· + ·) ((mm64_at _ _ r j).trans ?_) ((mm64_at _ _ r j).trans ?_))
    ((broadcastTo_1b_ab_apply _ broadcasts_S1x128_S2000x128 r j).trans ?_)
  · refine Finset.sum_congr rfl fun k _ => ?_
    show shapeCast S2000x64 x0 shapeCasts_S2000x64_S2000x64 (ix2 r k) * shapeCast S64x128 x2 shapeCasts_S64x128_S64x128 (ix2 k j) = _
    rw [shapeCast_self, shapeCast_self]
  · refine Finset.sum_congr rfl fun k _ => ?_
    show x1 (ix2 r k) * shapeCast S64x128 x3 shapeCasts_S64x128_S64x128 (ix2 k j) = _
    rw [shapeCast_self]
  · rw [shapeCast_self]

/-- The clamped norm of row `r`. -/
theorem nrm0_at (p : FVec Ideal S2000x128 .f32) (r : Fin 2000) (u : Fin 1) :
    nrm0 p (ix2 r u) = Sage.normRow (fun j => p (ix2 r j)) := by
  unfold nrm0 Sage.normRow
  show max (Ideal.sqrt (shapeCast S2000x1 _ shapeCasts_S2000_S2000x1 (ix2 r u))) (Ideal.ofBits .f32 0x2B8CBCCC#32) = _
  refine congrArg (fun z => max (Ideal.sqrt z) (Ideal.ofBits .f32 0x2B8CBCCC#32)) ?_
  refine (shapeCast_a_a1_apply _ shapeCasts_S2000_S2000x1 r u).trans ?_
  exact rowsum_at (mulf p p) _ _ r

end Layer0

open Layer0

/-- Entry (r, q) of what the first layer's body stores: the clamped normalized row `r` of the block, from row `r` of the
    mean block and of the feature block. -/
theorem pay0_at (x0 x1 : Vec Ideal S2000x64 .f32) (x2 x3 : Vec Ideal S64x128 .f32) (x4 : Vec Ideal S1x128 .f32)
    (r : Fin 2000) (q : Fin 128) :
    k0_pay1 (F := Ideal) x0 x1 x2 x3 x4 (ix2 r q)
      = Sage.reluRow 64 (fun k => x0 (ix2 r k)) (fun k => x1 (ix2 r k)) (fun k j => x2 (ix2 k j)) (fun k j => x3 (ix2 k j))
          (fun j => x4 (ix2 (0 : Fin 1) j)) q := by
  rw [pay0_eq]
  unfold Sage.reluRow Sage.linRow
  show max (Ideal.div (pre0 x0 x1 x2 x3 x4 (ix2 r q))
      (broadcastTo S2000x128 (nrm0 (pre0 x0 x1 x2 x3 x4)) broadcasts_S2000x1_S2000x128 (ix2 r q))) (Ideal.ofBits .f32 0x00000000#32) = _
  rw [broadcastTo_a1_ab_apply, nrm0_at, pre0_at]
  refine congrArg (fun f => max (Ideal.div _ (Sage.normRow f)) _) (funext fun j => pre0_at x0 x1 x2 x3 x4 r j)

end Cert.KernelIdeal.Body

end
-- ==== Proof.KRegion0.lean ====
import proofs.«179428_j33517924778074_1_alg».proof.Proof.Gen.KernelIdeal.Frame
import proofs.«179428_j33517924778074_1_alg».proof.Proof.KBody0
import Idealize.ShloMosaic.Lib.Pipeline.Value

noncomputable section

namespace Cert.KernelIdeal.Region

open Cert.KernelIdeal Cert.KernelIdeal.Gen Idealize.ShloMosaic Idealize.ShloMosaic.TcCoe Idealize.ShloMosaic.ValueIdx Idealize.SL.Sem
open Idealize.ShloMosaic.Pipeline (Dat Cfg Window)

set_option maxRecDepth 16384

variable (V : (c : Dev nD) → (b : Ref sig .tc) → Buf (Elt Ideal) ((c : Thread nD τ).loc b))

/-- The zero offsets of a whole-block access are the constant zero. -/
theorem zero_offsets0 : (![0, 0] : Fin 2 → Nat) = fun _ => 0 :=
  funext fun a => match a with | ⟨0, _⟩ => rfl | ⟨1, _⟩ => rfl

/-- The block indices, decided once over the 25 points: the mean, the features and the result sit at the same block of
    rows and at column block 0; each weight matrix and the bias are the one block (0, 0). -/
theorem block_index0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 24 ∧ win0_5.index t (1 : Fin 2) = 0 :=
  (by decide +kernel : ∀ t : Fin grid0.N, _)

/-- Every block of 2000 rows is some point's. -/
theorem block_onto0 : ∀ q0 : Fin 25, ∃ t : Fin cfg0.N, win0_5.index t = ![q0.val, 0] :=
  (by decide +kernel : ∀ q0 : Fin 25, ∃ t : Fin grid0.N, win0_5.index t = ![q0.val, 0])

/-- Row `r` of the mean's block at point `t` is row `2000·(block) + r` of the mean. -/
theorem mean_block0 (c : Dev nD) (t : Fin cfg0.N) (r : Fin 2000) (k : Fin 64) (i0 : Fin 50000)
    (h : i0.val = win0_5.index t (0 : Fin 2) * 2000 + 1 * r.val) :
    iblk0 (F := Ideal) V c 0 t (ix2 r k) = V c main_v30 (ix2 i0 k) := by
  show V c main_v30 (((cfg0.win 0).blk t).view.emb (ix2 r k)) = V c main_v30 (ix2 i0 k)
  refine congrArg (V c main_v30) ?_
  obtain ⟨e0, e1, -⟩ := block_index0 t
  funext a; apply Fin.ext
  match a with
  | ⟨0, _⟩ => show win0_0.index t (0 : Fin 2) * 2000 + 1 * r.val = i0.val; omega
  | ⟨1, _⟩ => show win0_0.index t (1 : Fin 2) * 64 + 1 * k.val = k.val; omega

/-- Row `r` of the features' block at point `t` is the same row of the features. -/
theorem feat_block0 (c : Dev nD) (t : Fin cfg0.N) (r : Fin 2000) (k : Fin 64) (i0 : Fin 50000)
    (h : i0.val = win0_5.index t (0 : Fin 2) * 2000 + 1 * r.val) :
    iblk0 (F := Ideal) V c 1 t (ix2 r k) = V c main_arg0 (ix2 i0 k) := by
  show V c main_arg0 (((cfg0.win 1).blk t).view.emb (ix2 r k)) = V c main_arg0 (ix2 i0 k)
  refine congrArg (V c main_arg0) ?_
  obtain ⟨-, -, e2, e3, -⟩ := block_index0 t
  funext a; apply Fin.ext
  match a with
  | ⟨0, _⟩ => show win0_1.index t (0 : Fin 2) * 2000 + 1 * r.val = i0.val; omega
  | ⟨1, _⟩ => show win0_1.index t (1 : Fin 2) * 64 + 1 * k.val = k.val; omega

/-- The first weight matrix's one block is the matrix. -/
theorem wl_block0 (c : Dev nD) (t : Fin cfg0.N) (k : Fin 64) (j : Fin 128) :
    iblk0 (F := Ideal) V c 2 t (ix2 k j) = V c main_v12 (ix2 k j) := by
  show V c main_v12 (((cfg0.win 2).blk t).view.emb (ix2 k j)) = V c main_v12 (ix2 k j)
  refine congrArg (V c main_v12) ?_
  obtain ⟨-, -, -, -, e4, e5, -⟩ := block_index0 t
  funext a; apply Fin.ext
  match a with
  | ⟨0, _⟩ => show win0_2.index t (0 : Fin 2) * 64 + 1 * k.val = k.val; omega
  | ⟨1, _⟩ => show win0_2.index t (1 : Fin 2) * 128 + 1 * j.val = j.val; omega

/-- The second weight matrix's one block is the matrix. -/
theorem wr_block0 (c : Dev nD) (t : Fin cfg0.N) (k : Fin 64) (j : Fin 128) :
    iblk0 (F := Ideal) V c 3 t (ix2 k j) = V c main_v13 (ix2 k j) := by
  show V c main_v13 (((cfg0.win 3).blk t).view.emb (ix2 k j)) = V c main_v13 (ix2 k j)
  refine congrArg (V c main_v13) ?_
  obtain ⟨-, -, -, -, -, -, e6, e7, -⟩ := block_index0 t
  funext a; apply Fin.ext
  match a with
  | ⟨0, _⟩ => show win0_3.index t (0 : Fin 2) * 64 + 1 * k.val = k.val; omega
  | ⟨1, _⟩ => show win0_3.index t (1 : Fin 2) * 128 + 1 * j.val = j.val; omega

/-- The bias's one block is the bias. -/
theorem bias_block0 (c : Dev nD) (t : Fin cfg0.N) (z : Fin 1) (j : Fin 128) :
    iblk0 (F := Ideal) V c 4 t (ix2 z j) = V c main_v31 (ix2 z j) := by
  show V c main_v31 (((cfg0.win 4).blk t).view.emb (ix2 z j)) = V c main_v31 (ix2 z j)
  refine congrArg (V c main_v31) ?_
  obtain ⟨-, -, -, -, -, -, -, -, e8, e9, -⟩ := block_index0 t
  funext a; apply Fin.ext
  match a with
  | ⟨0, _⟩ => show win0_4.index t (0 : Fin 2) * 1 + 1 * z.val = z.val; omega
  | ⟨1, _⟩ => show win0_4.index t (1 : Fin 2) * 128 + 1 * j.val = j.val; omega

/-- The layer at an index whose row is `i0` and whose column is `q`: that row's function, at `q`. -/
theorem layer64_at (A H : FVec Ideal (⟨2, ![50000, 64]⟩ : Shape) .f32) (WL WR : FVec Ideal (⟨2, ![64, 128]⟩ : Shape) .f32)
    (B : Fin 128 → EReal) (i : (⟨2, ![50000, 128]⟩ : Shape).Idx) (i0 : Fin 50000) (q : Fin 128) (h0 : i 0 = i0) (h1 : i 1 = q) :
    Sage.reluLayer64 A H WL WR B i
      = Sage.reluRow 64 (fun k => A (ix2 i0 k)) (fun k => H (ix2 i0 k)) (fun k j => WL (ix2 k j)) (fun k j => WR (ix2 k j)) B q := by
  subst h0 h1; rfl

/-- What point `t` writes back is block `t` of the layer of the arrays the region finds. -/
theorem flushed_eq0 (c : Dev nD) (t : Fin cfg0.N) :
    (dat0 (F := Ideal) V c).flushed 5 t = ((cfg0.win 5).blk t).view.read (Elt Ideal)
      (Sage.reluLayer64 (V c main_v30) (V c main_arg0) (V c main_v12) (V c main_v13) (fun j => V c main_v31 (ix2 (0 : Fin 1) j))) := by
  show (cfg0.win 5).cut (grid0.coords t) ((dat0 V c).after 5 t) = _
  rw [after0_5]
  unfold out0_5
  rw [View.canon_unit_zero zero_offsets0]
  simp only [View.ld_unit_zero (S := S2000x64) zero_offsets0, View.ld_unit_zero (S := S64x128) zero_offsets0,
    View.ld_unit_zero (S := S1x128) zero_offsets0]
  funext j
  obtain ⟨r, q, rfl⟩ : ∃ (r : Fin 2000) (q : Fin 128), j = ix2 r q := ⟨j 0, j 1, eq_ix2 j⟩
  refine (Body.pay0_at _ _ _ _ _ r q).trans ?_
  show _ = Sage.reluLayer64 _ _ _ _ _ (((cfg0.win 5).blk t).view.emb (ix2 r q))
  obtain ⟨-, -, -, -, -, -, -, -, -, -, e10, e11⟩ := block_index0 t
  -- the result's block sits at column block 0, so the column inside the block is the column
  have hq : ((cfg0.win 5).blk t).view.emb (ix2 r q) 1 = q :=
    Fin.ext (by show win0_5.index t (1 : Fin 2) * 128 + 1 * q.val = q.val; omega)
  -- its row in the array is 2000·(block) + the row inside the block
  have h : (((cfg0.win 5).blk t).view.emb (ix2 r q) 0).val = win0_5.index t (0 : Fin 2) * 2000 + 1 * r.val := rfl
  refine Eq.trans ?_ (layer64_at _ _ _ _ _ _ (((cfg0.win 5).blk t).view.emb (ix2 r q) 0) q rfl hq).symm
  simp only [mean_block0 V c t r _ _ h, feat_block0 V c t r _ _ h, wl_block0, wr_block0, bias_block0]

/-- An index of the result is in point `t`'s block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v32).slice (win0_5.rect t)).set ↔ _
  rw [View.set_slice_whole, Rect.mem_set_unit]
  exact Iff.rfl

/-- Every index of the result is in the block of the point whose block of rows holds its row. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := block_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The first region's output array once every grid point has written its block back: the hidden layer's function of
    the arrays the region finds at its entry — row by row, since block `t` holds rows `2000 t … 2000 t + 1999` of the mean,
    of the features and of the result alike, and the weights and the bias are one block each. -/
theorem final0 (c : Dev nD) :
    (dat0 (F := Ideal) V c).arrAt 5 cfg0.N
      = Sage.reluLayer64 (V c main_v30) (V c main_arg0) (V c main_v12) (V c main_v13) (fun j => V c main_v31 (ix2 (0 : Fin 1) j)) :=
  (dat0 (F := Ideal) V c).arrAt_eq_of_cover 5 _ (fun t _ => flushed_eq0 V c t) cover0

end Cert.KernelIdeal.Region

end
-- ==== Proof.KBody1.lean ====
import proofs.«179428_j33517924778074_1_alg».proof.Proof.Gen.KernelIdeal.Skeleton
import proofs.«179428_j33517924778074_1_alg».proof.Proof.Spec
import proofs.«179428_j33517924778074_1_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

namespace Layer1

/-! ## Two column forms of the layout operations, read at an index -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## This layer's matrix product: where its dimension numbers read the operands -/

theorem dot128_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot128_lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dot128_rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot128_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, q) of the product of a 2000 × 128 block and a 128 × 128 matrix into zero: the sum over the 128 input features. -/
theorem mm128_at (l : FVec Ideal S2000x128 .bf16) (w : FVec Ideal S128x128 .bf16) (r : Fin 2000) (q : Fin 128) :
    matmul dot_S2000x128_S128x128_S2000x128_1_0_0_1_n_n none l w (constant (F := Ideal) S2000x128 .f32 0x00000000#32) (ix2 r q)
      = ∑ k : Fin 128, l (ix2 r k) * w (ix2 k q) :=
  Idealize.ShloMosaic.MatmulAt.matmul_zero_at (A := 2000) (K := 128) (B := 128) dot_S2000x128_S128x128_S2000x128_1_0_0_1_n_n rfl rfl
    dot128_lhs0 dot128_lhs1 dot128_rhs0 dot128_rhs1 none l w r q

/-- The sum along the lanes of a 2000 × 128 block, read at row `r`. -/
theorem rowsum_at (src : FVec Ideal S2000x128 .f32) (hφ : FKind.Formats .f32)
    (hacc : (0x00000000#32 : BitVec 32) = FKind.add.neutral .f32 hφ) (r : Fin 2000) :
    multiReduction .add [1] S2000 src 0x00000000#32 reduces_S2000x128_S2000 hφ hacc (ix1 r) = ∑ k : Fin 128, src (ix2 r k) := by
  refine (Ideal.multiReduction_add_single src _ reduces_S2000x128_S2000 hφ hacc (ix1 r)).trans ?_
  refine Finset.sum_congr rfl fun k _ => congrArg src ?_
  funext a
  match a with
  | ⟨0, _⟩ => rfl
  | ⟨1, _⟩ => rfl

/-! ## This layer's body, operation by operation -/

/-- The pre-activation block: both matrix products and the bias row broadcast over the rows. -/
def pre1 (x0 x1 : Vec Ideal S2000x128 .f32) (x2 x3 : Vec Ideal S128x128 .f32) (x4 : Vec Ideal S1x128 .f32) :
    FVec Ideal S2000x128 .f32 :=
  addf
    (addf
      (matmul dot_S2000x128_S128x128_S2000x128_1_0_0_1_n_n none
        (truncf .bf16 (shapeCast S2000x128 x0 shapeCasts_S2000x128_S2000x128) bitsLt_bf16_f32)
        (truncf .bf16 (shapeCast S128x128 x2 shapeCasts_S128x128_S128x128) bitsLt_bf16_f32)
        (constant S2000x128 .f32 0x00000000#32))
      (matmul dot_S2000x128_S128x128_S2000x128_1_0_0_1_n_n none
        (truncf .bf16 (shapeCast S2000x128 x1 shapeCasts_S2000x128_S2000x128) bitsLt_bf16_f32)
        (truncf .bf16 (shapeCast S128x128 x3 shapeCasts_S128x128_S128x128) bitsLt_bf16_f32)
        (constant S2000x128 .f32 0x00000000#32)))
    (broadcastTo S2000x128 (shapeCast S1x128 x4 shapeCasts_S1x128_S1x128) broadcasts_S1x128_S2000x128)

/-- The clamped row norms, one column: the root of the lane sum of squares, clamped from below by ε. -/
def nrm1 (p : FVec Ideal S2000x128 .f32) : FVec Ideal S2000x1 .f32 :=
  maximumf
    (sqrt (shapeCast S2000x1 (multiReduction .add [1] S2000 (mulf p p) 0x00000000#32 reduces_S2000x128_S2000 (.inl rfl) rfl)
      shapeCasts_S2000_S2000x1))
    (broadcast S2000x1 (Scalar.ofBits .f32 0x2B8CBCCC#32))

/-- The stored block is the quotient of the pre-activation by its row norms, clamped from below by zero. -/
theorem pay1_eq (x0 x1 : Vec Ideal S2000x128 .f32) (x2 x3 : Vec Ideal S128x128 .f32) (x4 : Vec Ideal S1x128 .f32) :
    k1_pay1 (F := Ideal) x0 x1 x2 x3 x4
      = maximumf (divf (pre1 x0 x1 x2 x3 x4) (broadcastTo S2000x128 (nrm1 (pre1 x0 x1 x2 x3 x4)) broadcasts_S2000x1_S2000x128))
          (broadcast S2000x128 (Scalar.ofBits .f32 0x00000000#32)) := rfl

/-- The pre-activation at (r, j): row `r` of the mean and of the features against column `j` of the two weight matrices, plus the bias. -/
theorem pre1_at (x0 x1 : Vec Ideal S2000x128 .f32) (x2 x3 : Vec Ideal S128x128 .f32) (x4 : Vec Ideal S1x128 .f32)
    (r : Fin 2000) (j : Fin 128) :
    pre1 x0 x1 x2 x3 x4 (ix2 r j)
      = Sage.preRow 128 (fun k => x0 (ix2 r k)) (fun k => x1 (ix2 r k)) (fun k j => x2 (ix2 k j)) (fun k j => x3 (ix2 k j))
          (fun j => x4 (ix2 (0 : Fin 1) j)) j := by
  unfold pre1 Sage.preRow
  refine congrArg₂ (· + ·) (congrArg₂ (· + ·) ((mm128_at _ _ r j).trans ?_) ((mm128_at _ _ r j).trans ?_))
    ((broadcastTo_1b_ab_apply _ broadcasts_S1x128_S2000x128 r j).trans ?_)
  · refine Finset.sum_congr rfl fun k _ => ?_
    show shapeCast S2000x128 x0 shapeCasts_S2000x128_S2000x128 (ix2 r k) * shapeCast S128x128 x2 shapeCasts_S128x128_S128x128 (ix2 k j) = _
    rw [shapeCast_self, shapeCast_self]
  · refine Finset.sum_congr rfl fun k _ => ?_
    show shapeCast S2000x128 x1 shapeCasts_S2000x128_S2000x128 (ix2 r k) * shapeCast S128x128 x3 shapeCasts_S128x128_S128x128 (ix2 k j) = _
    rw [shapeCast_self, shapeCast_self]
  · rw [shapeCast_self]

/-- The clamped norm of row `r`. -/
theorem nrm1_at (p : FVec Ideal S2000x128 .f32) (r : Fin 2000) (u : Fin 1) :
    nrm1 p (ix2 r u) = Sage.normRow (fun j => p (ix2 r j)) := by
  unfold nrm1 Sage.normRow
  show max (Ideal.sqrt (shapeCast S2000x1 _ shapeCasts_S2000_S2000x1 (ix2 r u))) (Ideal.ofBits .f32 0x2B8CBCCC#32) = _
  refine congrArg (fun z => max (Ideal.sqrt z) (Ideal.ofBits .f32 0x2B8CBCCC#32)) ?_
  refine (shapeCast_a_a1_apply _ shapeCasts_S2000_S2000x1 r u).trans ?_
  exact rowsum_at (mulf p p) _ _ r

end Layer1

open Layer1

/-- Entry (r, q) of what this layer's body stores, from row `r` of the mean block and of the feature block. -/
theorem pay1_at (x0 x1 : Vec Ideal S2000x128 .f32) (x2 x3 : Vec Ideal S128x128 .f32) (x4 : Vec Ideal S1x128 .f32)
    (r : Fin 2000) (q : Fin 128) :
    k1_pay1 (F := Ideal) x0 x1 x2 x3 x4 (ix2 r q)
      = Sage.reluRow 128 (fun k => x0 (ix2 r k)) (fun k => x1 (ix2 r k)) (fun k j => x2 (ix2 k j)) (fun k j => x3 (ix2 k j))
          (fun j => x4 (ix2 (0 : Fin 1) j)) q := by
  rw [pay1_eq]
  unfold Sage.reluRow Sage.linRow
  show max (Ideal.div (pre1 x0 x1 x2 x3 x4 (ix2 r q))
      (broadcastTo S2000x128 (nrm1 (pre1 x0 x1 x2 x3 x4)) broadcasts_S2000x1_S2000x128 (ix2 r q))) (Ideal.ofBits .f32 0x00000000#32) = _
  rw [broadcastTo_a1_ab_apply, nrm1_at, pre1_at]
  refine congrArg (fun f => max (Ideal.div _ (Sage.normRow f)) _) (funext fun j => pre1_at x0 x1 x2 x3 x4 r j)

end Cert.KernelIdeal.Body

end
-- ==== Proof.KRegion1.lean ====
import proofs.«179428_j33517924778074_1_alg».proof.Proof.Gen.KernelIdeal.Frame
import proofs.«179428_j33517924778074_1_alg».proof.Proof.KBody1
import Idealize.ShloMosaic.Lib.Pipeline.Value

noncomputable section

namespace Cert.KernelIdeal.Region

open Cert.KernelIdeal Cert.KernelIdeal.Gen Idealize.ShloMosaic Idealize.ShloMosaic.TcCoe Idealize.ShloMosaic.ValueIdx Idealize.SL.Sem
open Idealize.ShloMosaic.Pipeline (Dat Cfg Window)

set_option maxRecDepth 16384

variable (V : (c : Dev nD) → (b : Ref sig .tc) → Buf (Elt Ideal) ((c : Thread nD τ).loc b))

/-- The zero offsets of a whole-block access are the constant zero. -/
theorem zero_offsets1 : (![0, 0] : Fin 2 → Nat) = fun _ => 0 :=
  funext fun a => match a with | ⟨0, _⟩ => rfl | ⟨1, _⟩ => rfl

/-- The block indices, decided once over the 25 points: the mean, the features and the result sit at the same block of
    rows and at column block 0; each weight matrix and the bias are the one block (0, 0). -/
theorem block_index1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 24 ∧ win1_5.index t (1 : Fin 2) = 0 :=
  (by decide +kernel : ∀ t : Fin grid1.N, _)

/-- Every block of 2000 rows is some point's. -/
theorem block_onto1 : ∀ q0 : Fin 25, ∃ t : Fin cfg1.N, win1_5.index t = ![q0.val, 0] :=
  (by decide +kernel : ∀ q0 : Fin 25, ∃ t : Fin grid1.N, win1_5.index t = ![q0.val, 0])

/-- Row `r` of the mean's block at point `t` is row `2000·(block) + r` of the mean. -/
theorem mean_block1 (c : Dev nD) (t : Fin cfg1.N) (r : Fin 2000) (k : Fin 128) (i0 : Fin 50000)
    (h : i0.val = win1_5.index t (0 : Fin 2) * 2000 + 1 * r.val) :
    iblk1 (F := Ideal) V c 0 t (ix2 r k) = V c main_v45 (ix2 i0 k) := by
  show V c main_v45 (((cfg1.win 0).blk t).view.emb (ix2 r k)) = V c main_v45 (ix2 i0 k)
  refine congrArg (V c main_v45) ?_
  obtain ⟨e0, e1, -⟩ := block_index1 t
  funext a; apply Fin.ext
  match a with
  | ⟨0, _⟩ => show win1_0.index t (0 : Fin 2) * 2000 + 1 * r.val = i0.val; omega
  | ⟨1, _⟩ => show win1_0.index t (1 : Fin 2) * 128 + 1 * k.val = k.val; omega

/-- Row `r` of the features' block at point `t` is the same row of the features. -/
theorem feat_block1 (c : Dev nD) (t : Fin cfg1.N) (r : Fin 2000) (k : Fin 128) (i0 : Fin 50000)
    (h : i0.val = win1_5.index t (0 : Fin 2) * 2000 + 1 * r.val) :
    iblk1 (F := Ideal) V c 1 t (ix2 r k) = V c main_v32 (ix2 i0 k) := by
  show V c main_v32 (((cfg1.win 1).blk t).view.emb (ix2 r k)) = V c main_v32 (ix2 i0 k)
  refine congrArg (V c main_v32) ?_
  obtain ⟨-, -, e2, e3, -⟩ := block_index1 t
  funext a; apply Fin.ext
  match a with
  | ⟨0, _⟩ => show win1_1.index t (0 : Fin 2) * 2000 + 1 * r.val = i0.val; omega
  | ⟨1, _⟩ => show win1_1.index t (1 : Fin 2) * 128 + 1 * k.val = k.val; omega

/-- The first weight matrix's one block is the matrix. -/
theorem wl_block1 (c : Dev nD) (t : Fin cfg1.N) (k : Fin 128) (j : Fin 128) :
    iblk1 (F := Ideal) V c 2 t (ix2 k j) = V c main_v14 (ix2 k j) := by
  show V c main_v14 (((cfg1.win 2).blk t).view.emb (ix2 k j)) = V c main_v14 (ix2 k j)
  refine congrArg (V c main_v14) ?_
  obtain ⟨-, -, -, -, e4, e5, -⟩ := block_index1 t
  funext a; apply Fin.ext
  match a with
  | ⟨0, _⟩ => show win1_2.index t (0 : Fin 2) * 128 + 1 * k.val = k.val; omega
  | ⟨1, _⟩ => show win1_2.index t (1 : Fin 2) * 128 + 1 * j.val = j.val; omega

/-- The second weight matrix's one block is the matrix. -/
theorem wr_block1 (c : Dev nD) (t : Fin cfg1.N) (k : Fin 128) (j : Fin 128) :
    iblk1 (F := Ideal) V c 3 t (ix2 k j) = V c main_v15 (ix2 k j) := by
  show V c main_v15 (((cfg1.win 3).blk t).view.emb (ix2 k j)) = V c main_v15 (ix2 k j)
  refine congrArg (V c main_v15) ?_
  obtain ⟨-, -, -, -, -, -, e6, e7, -⟩ := block_index1 t
  funext a; apply Fin.ext
  match a with
  | ⟨0, _⟩ => show win1_3.index t (0 : Fin 2) * 128 + 1 * k.val = k.val; omega
  | ⟨1, _⟩ => show win1_3.index t (1 : Fin 2) * 128 + 1 * j.val = j.val; omega

/-- The bias's one block is the bias. -/
theorem bias_block1 (c : Dev nD) (t : Fin cfg1.N) (z : Fin 1) (j : Fin 128) :
    iblk1 (F := Ideal) V c 4 t (ix2 z j) = V c main_v46 (ix2 z j) := by
  show V c main_v46 (((cfg1.win 4).blk t).view.emb (ix2 z j)) = V c main_v46 (ix2 z j)
  refine congrArg (V c main_v46) ?_
  obtain ⟨-, -, -, -, -, -, -, -, e8, e9, -⟩ := block_index1 t
  funext a; apply Fin.ext
  match a with
  | ⟨0, _⟩ => show win1_4.index t (0 : Fin 2) * 1 + 1 * z.val = z.val; omega
  | ⟨1, _⟩ => show win1_4.index t (1 : Fin 2) * 128 + 1 * j.val = j.val; omega

/-- The layer at an index whose row is `i0` and whose column is `q`: that row's function, at `q`. -/
theorem layer128_at1 (A H : FVec Ideal (⟨2, ![50000, 128]⟩ : Shape) .f32) (WL WR : FVec Ideal (⟨2, ![128, 128]⟩ : Shape) .f32)
    (B : Fin 128 → EReal) (i : (⟨2, ![50000, 128]⟩ : Shape).Idx) (i0 : Fin 50000) (q : Fin 128) (h0 : i 0 = i0) (h1 : i 1 = q) :
    Sage.reluLayer128 A H WL WR B i
      = Sage.reluRow 128 (fun k => A (ix2 i0 k)) (fun k => H (ix2 i0 k)) (fun k j => WL (ix2 k j)) (fun k j => WR (ix2 k j)) B q := by
  subst h0 h1; rfl

/-- What point `t` writes back is block `t` of the layer of the arrays the region finds. -/
theorem flushed_eq1 (c : Dev nD) (t : Fin cfg1.N) :
    (dat1 (F := Ideal) V c).flushed 5 t = ((cfg1.win 5).blk t).view.read (Elt Ideal)
      (Sage.reluLayer128 (V c main_v45) (V c main_v32) (V c main_v14) (V c main_v15) (fun j => V c main_v46 (ix2 (0 : Fin 1) j))) := by
  show (cfg1.win 5).cut (grid1.coords t) ((dat1 V c).after 5 t) = _
  rw [after1_5]
  unfold out1_5
  rw [View.canon_unit_zero zero_offsets1]
  simp only [View.ld_unit_zero (S := S2000x128) zero_offsets1, View.ld_unit_zero (S := S128x128) zero_offsets1, View.ld_unit_zero (S := S1x128) zero_offsets1]
  funext j
  obtain ⟨r, q, rfl⟩ : ∃ (r : Fin 2000) (q : Fin 128), j = ix2 r q := ⟨j 0, j 1, eq_ix2 j⟩
  refine (Body.pay1_at _ _ _ _ _ r q).trans ?_
  show _ = Sage.reluLayer128 _ _ _ _ _ (((cfg1.win 5).blk t).view.emb (ix2 r q))
  obtain ⟨-, -, -, -, -, -, -, -, -, -, e10, e11⟩ := block_index1 t
  -- the result's block sits at column block 0, so the column inside the block is the column
  have hq : ((cfg1.win 5).blk t).view.emb (ix2 r q) 1 = q :=
    Fin.ext (by show win1_5.index t (1 : Fin 2) * 128 + 1 * q.val = q.val; omega)
  -- its row in the array is 2000·(block) + the row inside the block
  have h : (((cfg1.win 5).blk t).view.emb (ix2 r q) 0).val = win1_5.index t (0 : Fin 2) * 2000 + 1 * r.val := rfl
  refine Eq.trans ?_ (layer128_at1 _ _ _ _ _ _ (((cfg1.win 5).blk t).view.emb (ix2 r q) 0) q rfl hq).symm
  simp only [mean_block1 V c t r _ _ h, feat_block1 V c t r _ _ h, wl_block1, wr_block1, bias_block1]

/-- An index of the result is in point `t`'s block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v47).slice (win1_5.rect t)).set ↔ _
  rw [View.set_slice_whole, Rect.mem_set_unit]
  exact Iff.rfl

/-- Every index of the result is in the block of the point whose block of rows holds its row. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := block_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- This region's output array once every grid point has written its block back: the layer's function of the arrays
    the region finds at its entry, row by row. -/
theorem final1 (c : Dev nD) :
    (dat1 (F := Ideal) V c).arrAt 5 cfg1.N
      = Sage.reluLayer128 (V c main_v45) (V c main_v32) (V c main_v14) (V c main_v15) (fun j => V c main_v46 (ix2 (0 : Fin 1) j)) :=
  (dat1 (F := Ideal) V c).arrAt_eq_of_cover 5 _ (fun t _ => flushed_eq1 V c t) cover1

end Cert.KernelIdeal.Region

end
-- ==== Proof.KBody2.lean ====
import proofs.«179428_j33517924778074_1_alg».proof.Proof.Gen.KernelIdeal.Skeleton
import proofs.«179428_j33517924778074_1_alg».proof.Proof.Spec
import proofs.«179428_j33517924778074_1_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

namespace Layer2

/-! ## Two column forms of the layout operations, read at an index -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## This layer's matrix product: where its dimension numbers read the operands -/

theorem dot128_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot128_lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dot128_rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot128_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, q) of the product of a 2000 × 128 block and a 128 × 128 matrix into zero: the sum over the 128 input features. -/
theorem mm128_at (l : FVec Ideal S2000x128 .bf16) (w : FVec Ideal S128x128 .bf16) (r : Fin 2000) (q : Fin 128) :
    matmul dot_S2000x128_S128x128_S2000x128_1_0_0_1_n_n none l w (constant (F := Ideal) S2000x128 .f32 0x00000000#32) (ix2 r q)
      = ∑ k : Fin 128, l (ix2 r k) * w (ix2 k q) :=
  Idealize.ShloMosaic.MatmulAt.matmul_zero_at (A := 2000) (K := 128) (B := 128) dot_S2000x128_S128x128_S2000x128_1_0_0_1_n_n rfl rfl
    dot128_lhs0 dot128_lhs1 dot128_rhs0 dot128_rhs1 none l w r q

/-- The sum along the lanes of a 2000 × 128 block, read at row `r`. -/
theorem rowsum_at (src : FVec Ideal S2000x128 .f32) (hφ : FKind.Formats .f32)
    (hacc : (0x00000000#32 : BitVec 32) = FKind.add.neutral .f32 hφ) (r : Fin 2000) :
    multiReduction .add [1] S2000 src 0x00000000#32 reduces_S2000x128_S2000 hφ hacc (ix1 r) = ∑ k : Fin 128, src (ix2 r k) := by
  refine (Ideal.multiReduction_add_single src _ reduces_S2000x128_S2000 hφ hacc (ix1 r)).trans ?_
  refine Finset.sum_congr rfl fun k _ => congrArg src ?_
  funext a
  match a with
  | ⟨0, _⟩ => rfl
  | ⟨1, _⟩ => rfl

/-! ## This layer's body, operation by operation -/

/-- The pre-activation block: both matrix products and the bias row broadcast over the rows. -/
def pre2 (x0 x1 : Vec Ideal S2000x128 .f32) (x2 x3 : Vec Ideal S128x128 .f32) (x4 : Vec Ideal S1x128 .f32) :
    FVec Ideal S2000x128 .f32 :=
  addf
    (addf
      (matmul dot_S2000x128_S128x128_S2000x128_1_0_0_1_n_n none
        (truncf .bf16 (shapeCast S2000x128 x0 shapeCasts_S2000x128_S2000x128) bitsLt_bf16_f32)
        (truncf .bf16 (shapeCast S128x128 x2 shapeCasts_S128x128_S128x128) bitsLt_bf16_f32)
        (constant S2000x128 .f32 0x00000000#32))
      (matmul dot_S2000x128_S128x128_S2000x128_1_0_0_1_n_n none
        (truncf .bf16 (shapeCast S2000x128 x1 shapeCasts_S2000x128_S2000x128) bitsLt_bf16_f32)
        (truncf .bf16 (shapeCast S128x128 x3 shapeCasts_S128x128_S128x128) bitsLt_bf16_f32)
        (constant S2000x128 .f32 0x00000000#32)))
    (broadcastTo S2000x128 (shapeCast S1x128 x4 shapeCasts_S1x128_S1x128) broadcasts_S1x128_S2000x128)

/-- The clamped row norms, one column: the root of the lane sum of squares, clamped from below by ε. -/
def nrm2 (p : FVec Ideal S2000x128 .f32) : FVec Ideal S2000x1 .f32 :=
  maximumf
    (sqrt (shapeCast S2000x1 (multiReduction .add [1] S2000 (mulf p p) 0x00000000#32 reduces_S2000x128_S2000 (.inl rfl) rfl)
      shapeCasts_S2000_S2000x1))
    (broadcast S2000x1 (Scalar.ofBits .f32 0x2B8CBCCC#32))

/-- The stored block is the quotient of the pre-activation by its row norms. -/
theorem pay2_eq (x0 x1 : Vec Ideal S2000x128 .f32) (x2 x3 : Vec Ideal S128x128 .f32) (x4 : Vec Ideal S1x128 .f32) :
    k2_pay1 (F := Ideal) x0 x1 x2 x3 x4
      = divf (pre2 x0 x1 x2 x3 x4) (broadcastTo S2000x128 (nrm2 (pre2 x0 x1 x2 x3 x4)) broadcasts_S2000x1_S2000x128) := rfl

/-- The pre-activation at (r, j): row `r` of the mean and of the features against column `j` of the two weight matrices, plus the bias. -/
theorem pre2_at (x0 x1 : Vec Ideal S2000x128 .f32) (x2 x3 : Vec Ideal S128x128 .f32) (x4 : Vec Ideal S1x128 .f32)
    (r : Fin 2000) (j : Fin 128) :
    pre2 x0 x1 x2 x3 x4 (ix2 r j)
      = Sage.preRow 128 (fun k => x0 (ix2 r k)) (fun k => x1 (ix2 r k)) (fun k j => x2 (ix2 k j)) (fun k j => x3 (ix2 k j))
          (fun j => x4 (ix2 (0 : Fin 1) j)) j := by
  unfold pre2 Sage.preRow
  refine congrArg₂ (· + ·) (congrArg₂ (· + ·) ((mm128_at _ _ r j).trans ?_) ((mm128_at _ _ r j).trans ?_))
    ((broadcastTo_1b_ab_apply _ broadcasts_S1x128_S2000x128 r j).trans ?_)
  · refine Finset.sum_congr rfl fun k _ => ?_
    show shapeCast S2000x128 x0 shapeCasts_S2000x128_S2000x128 (ix2 r k) * shapeCast S128x128 x2 shapeCasts_S128x128_S128x128 (ix2 k j) = _
    rw [shapeCast_self, shapeCast_self]
  · refine Finset.sum_congr rfl fun k _ => ?_
    show shapeCast S2000x128 x1 shapeCasts_S2000x128_S2000x128 (ix2 r k) * shapeCast S128x128 x3 shapeCasts_S128x128_S128x128 (ix2 k j) = _
    rw [shapeCast_self, shapeCast_self]
  · rw [shapeCast_self]

/-- The clamped norm of row `r`. -/
theorem nrm2_at (p : FVec Ideal S2000x128 .f32) (r : Fin 2000) (u : Fin 1) :
    nrm2 p (ix2 r u) = Sage.normRow (fun j => p (ix2 r j)) := by
  unfold nrm2 Sage.normRow
  show max (Ideal.sqrt (shapeCast S2000x1 _ shapeCasts_S2000_S2000x1 (ix2 r u))) (Ideal.ofBits .f32 0x2B8CBCCC#32) = _
  refine congrArg (fun z => max (Ideal.sqrt z) (Ideal.ofBits .f32 0x2B8CBCCC#32)) ?_
  refine (shapeCast_a_a1_apply _ shapeCasts_S2000_S2000x1 r u).trans ?_
  exact rowsum_at (mulf p p) _ _ r

end Layer2

open Layer2

/-- Entry (r, q) of what this layer's body stores, from row `r` of the mean block and of the feature block. -/
theorem pay2_at (x0 x1 : Vec Ideal S2000x128 .f32) (x2 x3 : Vec Ideal S128x128 .f32) (x4 : Vec Ideal S1x128 .f32)
    (r : Fin 2000) (q : Fin 128) :
    k2_pay1 (F := Ideal) x0 x1 x2 x3 x4 (ix2 r q)
      = Sage.linRow 128 (fun k => x0 (ix2 r k)) (fun k => x1 (ix2 r k)) (fun k j => x2 (ix2 k j)) (fun k j => x3 (ix2 k j))
          (fun j => x4 (ix2 (0 : Fin 1) j)) q := by
  rw [pay2_eq]
  unfold Sage.linRow
  show Ideal.div (pre2 x0 x1 x2 x3 x4 (ix2 r q))
      (broadcastTo S2000x128 (nrm2 (pre2 x0 x1 x2 x3 x4)) broadcasts_S2000x1_S2000x128 (ix2 r q)) = _
  rw [broadcastTo_a1_ab_apply, nrm2_at, pre2_at]
  refine congrArg (fun f => Ideal.div _ (Sage.normRow f)) (funext fun j => pre2_at x0 x1 x2 x3 x4 r j)

end Cert.KernelIdeal.Body

end
-- ==== Proof.KRegion2.lean ====
import proofs.«179428_j33517924778074_1_alg».proof.Proof.Gen.KernelIdeal.Frame
import proofs.«179428_j33517924778074_1_alg».proof.Proof.KBody2
import Idealize.ShloMosaic.Lib.Pipeline.Value

noncomputable section

namespace Cert.KernelIdeal.Region

open Cert.KernelIdeal Cert.KernelIdeal.Gen Idealize.ShloMosaic Idealize.ShloMosaic.TcCoe Idealize.ShloMosaic.ValueIdx Idealize.SL.Sem
open Idealize.ShloMosaic.Pipeline (Dat Cfg Window)

set_option maxRecDepth 16384

variable (V : (c : Dev nD) → (b : Ref sig .tc) → Buf (Elt Ideal) ((c : Thread nD τ).loc b))

/-- The zero offsets of a whole-block access are the constant zero. -/
theorem zero_offsets2 : (![0, 0] : Fin 2 → Nat) = fun _ => 0 :=
  funext fun a => match a with | ⟨0, _⟩ => rfl | ⟨1, _⟩ => rfl

/-- The block indices, decided once over the 25 points: the mean, the features and the result sit at the same block of
    rows and at column block 0; each weight matrix and the bias are the one block (0, 0). -/
theorem block_index2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 24 ∧ win2_5.index t (1 : Fin 2) = 0 :=
  (by decide +kernel : ∀ t : Fin grid2.N, _)

/-- Every block of 2000 rows is some point's. -/
theorem block_onto2 : ∀ q0 : Fin 25, ∃ t : Fin cfg2.N, win2_5.index t = ![q0.val, 0] :=
  (by decide +kernel : ∀ q0 : Fin 25, ∃ t : Fin grid2.N, win2_5.index t = ![q0.val, 0])

/-- Row `r` of the mean's block at point `t` is row `2000·(block) + r` of the mean. -/
theorem mean_block2 (c : Dev nD) (t : Fin cfg2.N) (r : Fin 2000) (k : Fin 128) (i0 : Fin 50000)
    (h : i0.val = win2_5.index t (0 : Fin 2) * 2000 + 1 * r.val) :
    iblk2 (F := Ideal) V c 0 t (ix2 r k) = V c main_v60 (ix2 i0 k) := by
  show V c main_v60 (((cfg2.win 0).blk t).view.emb (ix2 r k)) = V c main_v60 (ix2 i0 k)
  refine congrArg (V c main_v60) ?_
  obtain ⟨e0, e1, -⟩ := block_index2 t
  funext a; apply Fin.ext
  match a with
  | ⟨0, _⟩ => show win2_0.index t (0 : Fin 2) * 2000 + 1 * r.val = i0.val; omega
  | ⟨1, _⟩ => show win2_0.index t (1 : Fin 2) * 128 + 1 * k.val = k.val; omega

/-- Row `r` of the features' block at point `t` is the same row of the features. -/
theorem feat_block2 (c : Dev nD) (t : Fin cfg2.N) (r : Fin 2000) (k : Fin 128) (i0 : Fin 50000)
    (h : i0.val = win2_5.index t (0 : Fin 2) * 2000 + 1 * r.val) :
    iblk2 (F := Ideal) V c 1 t (ix2 r k) = V c main_v47 (ix2 i0 k) := by
  show V c main_v47 (((cfg2.win 1).blk t).view.emb (ix2 r k)) = V c main_v47 (ix2 i0 k)
  refine congrArg (V c main_v47) ?_
  obtain ⟨-, -, e2, e3, -⟩ := block_index2 t
  funext a; apply Fin.ext
  match a with
  | ⟨0, _⟩ => show win2_1.index t (0 : Fin 2) * 2000 + 1 * r.val = i0.val; omega
  | ⟨1, _⟩ => show win2_1.index t (1 : Fin 2) * 128 + 1 * k.val = k.val; omega

/-- The first weight matrix's one block is the matrix. -/
theorem wl_block2 (c : Dev nD) (t : Fin cfg2.N) (k : Fin 128) (j : Fin 128) :
    iblk2 (F := Ideal) V c 2 t (ix2 k j) = V c main_v16 (ix2 k j) := by
  show V c main_v16 (((cfg2.win 2).blk t).view.emb (ix2 k j)) = V c main_v16 (ix2 k j)
  refine congrArg (V c main_v16) ?_
  obtain ⟨-, -, -, -, e4, e5, -⟩ := block_index2 t
  funext a; apply Fin.ext
  match a with
  | ⟨0, _⟩ => show win2_2.index t (0 : Fin 2) * 128 + 1 * k.val = k.val; omega
  | ⟨1, _⟩ => show win2_2.index t (1 : Fin 2) * 128 + 1 * j.val = j.val; omega

/-- The second weight matrix's one block is the matrix. -/
theorem wr_block2 (c : Dev nD) (t : Fin cfg2.N) (k : Fin 128) (j : Fin 128) :
    iblk2 (F := Ideal) V c 3 t (ix2 k j) = V c main_v17 (ix2 k j) := by
  show V c main_v17 (((cfg2.win 3).blk t).view.emb (ix2 k j)) = V c main_v17 (ix2 k j)
  refine congrArg (V c main_v17) ?_
  obtain ⟨-, -, -, -, -, -, e6, e7, -⟩ := block_index2 t
  funext a; apply Fin.ext
  match a with
  | ⟨0, _⟩ => show win2_3.index t (0 : Fin 2) * 128 + 1 * k.val = k.val; omega
  | ⟨1, _⟩ => show win2_3.index t (1 : Fin 2) * 128 + 1 * j.val = j.val; omega

/-- The bias's one block is the bias. -/
theorem bias_block2 (c : Dev nD) (t : Fin cfg2.N) (z : Fin 1) (j : Fin 128) :
    iblk2 (F := Ideal) V c 4 t (ix2 z j) = V c main_v61 (ix2 z j) := by
  show V c main_v61 (((cfg2.win 4).blk t).view.emb (ix2 z j)) = V c main_v61 (ix2 z j)
  refine congrArg (V c main_v61) ?_
  obtain ⟨-, -, -, -, -, -, -, -, e8, e9, -⟩ := block_index2 t
  funext a; apply Fin.ext
  match a with
  | ⟨0, _⟩ => show win2_4.index t (0 : Fin 2) * 1 + 1 * z.val = z.val; omega
  | ⟨1, _⟩ => show win2_4.index t (1 : Fin 2) * 128 + 1 * j.val = j.val; omega

/-- The layer at an index whose row is `i0` and whose column is `q`: that row's function, at `q`. -/
theorem layer128_at2 (A H : FVec Ideal (⟨2, ![50000, 128]⟩ : Shape) .f32) (WL WR : FVec Ideal (⟨2, ![128, 128]⟩ : Shape) .f32)
    (B : Fin 128 → EReal) (i : (⟨2, ![50000, 128]⟩ : Shape).Idx) (i0 : Fin 50000) (q : Fin 128) (h0 : i 0 = i0) (h1 : i 1 = q) :
    Sage.linLayer128 A H WL WR B i
      = Sage.linRow 128 (fun k => A (ix2 i0 k)) (fun k => H (ix2 i0 k)) (fun k j => WL (ix2 k j)) (fun k j => WR (ix2 k j)) B q := by
  subst h0 h1; rfl

/-- What point `t` writes back is block `t` of the layer of the arrays the region finds. -/
theorem flushed_eq2 (c : Dev nD) (t : Fin cfg2.N) :
    (dat2 (F := Ideal) V c).flushed 5 t = ((cfg2.win 5).blk t).view.read (Elt Ideal)
      (Sage.linLayer128 (V c main_v60) (V c main_v47) (V c main_v16) (V c main_v17) (fun j => V c main_v61 (ix2 (0 : Fin 1) j))) := by
  show (cfg2.win 5).cut (grid2.coords t) ((dat2 V c).after 5 t) = _
  rw [after2_5]
  unfold out2_5
  rw [View.canon_unit_zero zero_offsets2]
  simp only [View.ld_unit_zero (S := S2000x128) zero_offsets2, View.ld_unit_zero (S := S128x128) zero_offsets2, View.ld_unit_zero (S := S1x128) zero_offsets2]
  funext j
  obtain ⟨r, q, rfl⟩ : ∃ (r : Fin 2000) (q : Fin 128), j = ix2 r q := ⟨j 0, j 1, eq_ix2 j⟩
  refine (Body.pay2_at _ _ _ _ _ r q).trans ?_
  show _ = Sage.linLayer128 _ _ _ _ _ (((cfg2.win 5).blk t).view.emb (ix2 r q))
  obtain ⟨-, -, -, -, -, -, -, -, -, -, e10, e11⟩ := block_index2 t
  -- the result's block sits at column block 0, so the column inside the block is the column
  have hq : ((cfg2.win 5).blk t).view.emb (ix2 r q) 1 = q :=
    Fin.ext (by show win2_5.index t (1 : Fin 2) * 128 + 1 * q.val = q.val; omega)
  -- its row in the array is 2000·(block) + the row inside the block
  have h : (((cfg2.win 5).blk t).view.emb (ix2 r q) 0).val = win2_5.index t (0 : Fin 2) * 2000 + 1 * r.val := rfl
  refine Eq.trans ?_ (layer128_at2 _ _ _ _ _ _ (((cfg2.win 5).blk t).view.emb (ix2 r q) 0) q rfl hq).symm
  simp only [mean_block2 V c t r _ _ h, feat_block2 V c t r _ _ h, wl_block2, wr_block2, bias_block2]

/-- An index of the result is in point `t`'s block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v62).slice (win2_5.rect t)).set ↔ _
  rw [View.set_slice_whole, Rect.mem_set_unit]
  exact Iff.rfl

/-- Every index of the result is in the block of the point whose block of rows holds its row. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := block_onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- This region's output array once every grid point has written its block back: the layer's function of the arrays
    the region finds at its entry, row by row. -/
theorem final2 (c : Dev nD) :
    (dat2 (F := Ideal) V c).arrAt 5 cfg2.N
      = Sage.linLayer128 (V c main_v60) (V c main_v47) (V c main_v16) (V c main_v17) (fun j => V c main_v61 (ix2 (0 : Fin 1) j)) :=
  (dat2 (F := Ideal) V c).arrAt_eq_of_cover 5 _ (fun t _ => flushed_eq2 V c t) cover2

end Cert.KernelIdeal.Region

end
-- ==== Proof.KHost.lean ====
import proofs.«179428_j33517924778074_1_alg».proof.Proof.Gen.KernelIdeal.Frame
import proofs.«179428_j33517924778074_1_alg».proof.Proof.Spec
import proofs.«179428_j33517924778074_1_alg».proof.Proof.KRegion0
import proofs.«179428_j33517924778074_1_alg».proof.Proof.KRegion1
import proofs.«179428_j33517924778074_1_alg».proof.Proof.KRegion2
import Idealize.ShloMosaic.Lib.StableHlo.Run
import Idealize.ShloMosaic.Lib.Pipeline.Value

noncomputable section

namespace Cert.KernelIdeal.Glue

open Cert.KernelIdeal Cert.KernelIdeal.Gen Idealize.ShloMosaic Idealize.ShloMosaic.TcCoe Idealize.ShloMosaic.ValueIdx Idealize.SL.Sem Idealize.ShloMosaic.StableHlo

set_option maxRecDepth 16384

/-! ## The host lines between the regions, as functions

The edge list's first row is the source node of each edge and its second row the target node. A negative source index
is wrapped by the node count; the features of the source nodes are gathered and added up at the target nodes; the
in-degree, clamped from below by one, gives the reciprocal the sums are multiplied by. -/

abbrev EdgeList := (⟨S2x800000, .i32⟩ : BufTy).Contents (Elt Ideal)
abbrev EdgeRow := (⟨S800000, .i32⟩ : BufTy).Contents (Elt Ideal)
abbrev NodeVec := FVec Ideal S50000 .f32

/-- Row 0 of the edge list: the source nodes. -/
def srcOf (e : EdgeList) : EdgeRow :=
  fun i => shapeCast S800000 (extractStridedSlice S1x800000 ![0, 0] e slices_S2x800000_S1x800000_0_0) shapeCasts_S1x800000_S800000 i

/-- Row 1 of the edge list: the target nodes. -/
def dstOf (e : EdgeList) : EdgeRow :=
  fun i => shapeCast S800000 (extractStridedSlice S1x800000 ![1, 0] e slices_S2x800000_S1x800000_1_0) shapeCasts_S1x800000_S800000 i

/-- The in-degree of every node: a one added at the target of every edge. -/
def degree (d : EdgeRow) : NodeVec :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- The constant one at every node. -/
def nodeOnes : NodeVec :=
  broadcastInDim S50000 ![] bcast_S_S50000 (constant (F := Ideal) S_ .f32 0x3F800000#32)

/-- The reciprocal of the in-degree clamped from below by one. -/
def recipDeg (d : EdgeRow) : NodeVec :=
  Host.divf (F := Ideal) nodeOnes (maximumf (degree d) nodeOnes)

/-- A source index wrapped into range: `s + 50000` where `s < 0`. -/
def wrapSrc (s : EdgeRow) : EdgeRow :=
  select (cmpi .slt s (broadcastInDim S800000 ![] bcast_S_S800000 (constantI S_ 32 0#32)))
    (addi s (broadcastInDim S800000 ![] bcast_S_S800000 (constantI S_ 32 50000#32))) s

/-- The neighbour sum of 64-wide features. -/
def nbrSum64 (h : FVec Ideal S50000x64 .f32) (s d : EdgeRow) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (Host.gather gather_S50000x64_S800000x1_S800000x64_1_0_n_n_0_1_164 h (broadcastInDim S800000x1 ![0] bcast_S800000_S800000x1_0 (wrapSrc s)))

/-- The neighbour sum of 128-wide features. -/
def nbrSum128 (h : FVec Ideal S50000x128 .f32) (s d : EdgeRow) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 h (broadcastInDim S800000x1 ![0] bcast_S800000_S800000x1_0 (wrapSrc s)))

/-- A node vector spread over 64 columns: entry (p, k) is the vector's entry p. -/
def spread64 (v : NodeVec) : FVec Ideal S50000x64 .f32 :=
  broadcastInDim S50000x64 ![0, 1] bcast_S50000x1_S50000x64_0_1 (broadcastInDim S50000x1 ![0] bcast_S50000_S50000x1_0 v)

/-- A node vector spread over 128 columns. -/
def spread128 (v : NodeVec) : FVec Ideal S50000x128 .f32 :=
  broadcastInDim S50000x128 ![0, 1] bcast_S50000x1_S50000x128_0_1 (broadcastInDim S50000x1 ![0] bcast_S50000_S50000x1_0 v)

/-- The mean this program feeds its first layer: the neighbour sum times the reciprocal degree, row by row. -/
def mean64 (h : FVec Ideal S50000x64 .f32) (s d : EdgeRow) (ci : NodeVec) : FVec Ideal S50000x64 .f32 :=
  mulf (nbrSum64 h s d) (spread64 ci)

/-- The mean this program feeds its second and third layers. -/
def mean128 (h : FVec Ideal S50000x128 .f32) (s d : EdgeRow) (ci : NodeVec) : FVec Ideal S50000x128 .f32 :=
  mulf (nbrSum128 h s d) (spread128 ci)

/-- A weight matrix [128, 64] transposed. -/
def tr64 (w : FVec Ideal S128x64 .f32) : FVec Ideal S64x128 .f32 :=
  transpose S64x128 [1, 0] w transposes_S128x64_S64x128_1_0

/-- A weight matrix [128, 128] transposed. -/
def tr128 (w : FVec Ideal S128x128 .f32) : FVec Ideal S128x128 .f32 :=
  transpose S128x128 [1, 0] w transposes_S128x128_S128x128_1_0

/-- A bias [128] as one row [1, 128]. -/
def biasRow (b : FVec Ideal S128 .f32) : FVec Ideal S1x128 .f32 :=
  fun i => shapeCast S1x128 b shapeCasts_S128_S1x128 i

variable (m : (ℓ : Loc nD τ sig) → Buf (Elt Ideal) ℓ) (ρ : Dev nD → PrngReg)

/-! ## What the first region finds: the first stretch of host lines read back to the launch contents -/

theorem W1_v1 (c : Dev nD) : W1 m ρ c (Proc.devRef .tc main_v1) = srcOf (m ((c : Thread nD τ).loc main_arg1)) := by
  show StableHlo.after hostOps0 (W0 m ρ c) (Proc.devRef .tc main_v1) = _
  after_results_simp <;> rfl

theorem W1_v3 (c : Dev nD) : W1 m ρ c (Proc.devRef .tc main_v3) = dstOf (m ((c : Thread nD τ).loc main_arg1)) := by
  show StableHlo.after hostOps0 (W0 m ρ c) (Proc.devRef .tc main_v3) = _
  after_results_simp <;> rfl

theorem W1_v11 (c : Dev nD) : W1 m ρ c (Proc.devRef .tc main_v11) = recipDeg (dstOf (m ((c : Thread nD τ).loc main_arg1))) := by
  show StableHlo.after hostOps0 (W0 m ρ c) (Proc.devRef .tc main_v11) = _
  after_results_simp <;> rfl

theorem W1_v30 (c : Dev nD) : W1 m ρ c (Proc.devRef .tc main_v30) = mean64 (m ((c : Thread nD τ).loc main_arg0)) (srcOf (m ((c : Thread nD τ).loc main_arg1))) (dstOf (m ((c : Thread nD τ).loc main_arg1))) (recipDeg (dstOf (m ((c : Thread nD τ).loc main_arg1)))) := by
  show StableHlo.after hostOps0 (W0 m ρ c) (Proc.devRef .tc main_v30) = _
  after_results_simp <;> rfl

theorem W1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

theorem W1_v12 (c : Dev nD) : W1 m ρ c (Proc.devRef .tc main_v12) = tr64 (m ((c : Thread nD τ).loc main_arg2)) := by
  show StableHlo.after hostOps0 (W0 m ρ c) (Proc.devRef .tc main_v12) = _
  after_results_simp <;> rfl

theorem W1_v13 (c : Dev nD) : W1 m ρ c (Proc.devRef .tc main_v13) = tr64 (m ((c : Thread nD τ).loc main_arg4)) := by
  show StableHlo.after hostOps0 (W0 m ρ c) (Proc.devRef .tc main_v13) = _
  after_results_simp <;> rfl

theorem W1_v14 (c : Dev nD) : W1 m ρ c (Proc.devRef .tc main_v14) = tr128 (m ((c : Thread nD τ).loc main_arg5)) := by
  show StableHlo.after hostOps0 (W0 m ρ c) (Proc.devRef .tc main_v14) = _
  after_results_simp <;> rfl

theorem W1_v15 (c : Dev nD) : W1 m ρ c (Proc.devRef .tc main_v15) = tr128 (m ((c : Thread nD τ).loc main_arg7)) := by
  show StableHlo.after hostOps0 (W0 m ρ c) (Proc.devRef .tc main_v15) = _
  after_results_simp <;> rfl

theorem W1_v16 (c : Dev nD) : W1 m ρ c (Proc.devRef .tc main_v16) = tr128 (m ((c : Thread nD τ).loc main_arg8)) := by
  show StableHlo.after hostOps0 (W0 m ρ c) (Proc.devRef .tc main_v16) = _
  after_results_simp <;> rfl

theorem W1_v17 (c : Dev nD) : W1 m ρ c (Proc.devRef .tc main_v17) = tr128 (m ((c : Thread nD τ).loc main_arg10)) := by
  show StableHlo.after hostOps0 (W0 m ρ c) (Proc.devRef .tc main_v17) = _
  after_results_simp <;> rfl

theorem W1_v31 (c : Dev nD) : W1 m ρ c (Proc.devRef .tc main_v31) = biasRow (m ((c : Thread nD τ).loc main_arg3)) := by
  show StableHlo.after hostOps0 (W0 m ρ c) (Proc.devRef .tc main_v31) = _
  after_results_simp <;> rfl

theorem W1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl

theorem W1_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl

/-! ## The three layers' outputs as this program computes them -/

/-- The first layer's output. -/
def feat1 (c : Dev nD) : FVec Ideal S50000x128 .f32 :=
  Sage.reluLayer64 (mean64 (m ((c : Thread nD τ).loc main_arg0)) (srcOf (m ((c : Thread nD τ).loc main_arg1))) (dstOf (m ((c : Thread nD τ).loc main_arg1))) (recipDeg (dstOf (m ((c : Thread nD τ).loc main_arg1))))) (m ((c : Thread nD τ).loc main_arg0)) (tr64 (m ((c : Thread nD τ).loc main_arg2))) (tr64 (m ((c : Thread nD τ).loc main_arg4))) (fun j => biasRow (m ((c : Thread nD τ).loc main_arg3)) (ix2 (0 : Fin 1) j))

/-- The second layer's output. -/
def feat2 (c : Dev nD) : FVec Ideal S50000x128 .f32 :=
  Sage.reluLayer128 (mean128 (feat1 m c) (srcOf (m ((c : Thread nD τ).loc main_arg1))) (dstOf (m ((c : Thread nD τ).loc main_arg1))) (recipDeg (dstOf (m ((c : Thread nD τ).loc main_arg1))))) (feat1 m c) (tr128 (m ((c : Thread nD τ).loc main_arg5))) (tr128 (m ((c : Thread nD τ).loc main_arg7))) (fun j => biasRow (m ((c : Thread nD τ).loc main_arg6)) (ix2 (0 : Fin 1) j))

/-- The third layer's output: the program's result. -/
def feat3 (c : Dev nD) : FVec Ideal S50000x128 .f32 :=
  Sage.linLayer128 (mean128 (feat2 m c) (srcOf (m ((c : Thread nD τ).loc main_arg1))) (dstOf (m ((c : Thread nD τ).loc main_arg1))) (recipDeg (dstOf (m ((c : Thread nD τ).loc main_arg1))))) (feat2 m c) (tr128 (m ((c : Thread nD τ).loc main_arg8))) (tr128 (m ((c : Thread nD τ).loc main_arg10))) (fun j => biasRow (m ((c : Thread nD τ).loc main_arg9)) (ix2 (0 : Fin 1) j))

/-! ## After the first region: its result array is the first layer's output; nothing else it reads has moved -/

theorem W2_v32 (c : Dev nD) : W2 m ρ c (Proc.devRef .tc main_v32) = feat1 m c := by
  have f : (dat0 (F := Ideal) (V1 m ρ) c).arrAt 5 cfg0.N
      = Sage.reluLayer64 (W1 m ρ c (Proc.devRef .tc main_v30)) (W1 m ρ c (Proc.devRef .tc main_arg0)) (W1 m ρ c (Proc.devRef .tc main_v12)) (W1 m ρ c (Proc.devRef .tc main_v13)) (fun j => (W1 m ρ c (Proc.devRef .tc main_v31)) (ix2 (0 : Fin 1) j)) :=
    Region.final0 (V1 m ρ) c
  rw [W1_v30, W1_arg0, W1_v12, W1_v13, W1_v31] at f
  exact (W2_arr m ρ c 5).trans f

theorem W2_v1 (c : Dev nD) : W2 m ρ c (Proc.devRef .tc main_v1) = W1 m ρ c (Proc.devRef .tc main_v1) :=
  W2_of_ne m ρ c main_v1 (by decide)

theorem W2_v3 (c : Dev nD) : W2 m ρ c (Proc.devRef .tc main_v3) = W1 m ρ c (Proc.devRef .tc main_v3) :=
  W2_of_ne m ρ c main_v3 (by decide)

theorem W2_v11 (c : Dev nD) : W2 m ρ c (Proc.devRef .tc main_v11) = W1 m ρ c (Proc.devRef .tc main_v11) :=
  W2_of_ne m ρ c main_v11 (by decide)

theorem W2_v14 (c : Dev nD) : W2 m ρ c (Proc.devRef .tc main_v14) = W1 m ρ c (Proc.devRef .tc main_v14) :=
  W2_of_ne m ρ c main_v14 (by decide)

theorem W2_v15 (c : Dev nD) : W2 m ρ c (Proc.devRef .tc main_v15) = W1 m ρ c (Proc.devRef .tc main_v15) :=
  W2_of_ne m ρ c main_v15 (by decide)

theorem W2_v16 (c : Dev nD) : W2 m ρ c (Proc.devRef .tc main_v16) = W1 m ρ c (Proc.devRef .tc main_v16) :=
  W2_of_ne m ρ c main_v16 (by decide)

theorem W2_v17 (c : Dev nD) : W2 m ρ c (Proc.devRef .tc main_v17) = W1 m ρ c (Proc.devRef .tc main_v17) :=
  W2_of_ne m ρ c main_v17 (by decide)

theorem W2_arg6 (c : Dev nD) : W2 m ρ c (Proc.devRef .tc main_arg6) = W1 m ρ c (Proc.devRef .tc main_arg6) :=
  W2_of_ne m ρ c main_arg6 (by decide)

theorem W2_arg9 (c : Dev nD) : W2 m ρ c (Proc.devRef .tc main_arg9) = W1 m ρ c (Proc.devRef .tc main_arg9) :=
  W2_of_ne m ρ c main_arg9 (by decide)

/-! ## What the second region finds -/

theorem W3_v45 (c : Dev nD) : W3 m ρ c (Proc.devRef .tc main_v45) = mean128 (W2 m ρ c (Proc.devRef .tc main_v32)) (W2 m ρ c (Proc.devRef .tc main_v1)) (W2 m ρ c (Proc.devRef .tc main_v3)) (W2 m ρ c (Proc.devRef .tc main_v11)) := by
  show StableHlo.after hostOps1 (W2 m ρ c) (Proc.devRef .tc main_v45) = _
  after_results_simp <;> rfl

theorem W3_v32 (c : Dev nD) : W3 m ρ c (Proc.devRef .tc main_v32) = (W2 m ρ c (Proc.devRef .tc main_v32)) := by
  show StableHlo.after hostOps1 (W2 m ρ c) (Proc.devRef .tc main_v32) = _
  after_results_simp <;> rfl

theorem W3_v14 (c : Dev nD) : W3 m ρ c (Proc.devRef .tc main_v14) = (W2 m ρ c (Proc.devRef .tc main_v14)) := by
  show StableHlo.after hostOps1 (W2 m ρ c) (Proc.devRef .tc main_v14) = _
  after_results_simp <;> rfl

theorem W3_v15 (c : Dev nD) : W3 m ρ c (Proc.devRef .tc main_v15) = (W2 m ρ c (Proc.devRef .tc main_v15)) := by
  show StableHlo.after hostOps1 (W2 m ρ c) (Proc.devRef .tc main_v15) = _
  after_results_simp <;> rfl

theorem W3_v46 (c : Dev nD) : W3 m ρ c (Proc.devRef .tc main_v46) = biasRow (W2 m ρ c (Proc.devRef .tc main_arg6)) := by
  show StableHlo.after hostOps1 (W2 m ρ c) (Proc.devRef .tc main_v46) = _
  after_results_simp <;> rfl

theorem W3_v1 (c : Dev nD) : W3 m ρ c (Proc.devRef .tc main_v1) = (W2 m ρ c (Proc.devRef .tc main_v1)) := by
  show StableHlo.after hostOps1 (W2 m ρ c) (Proc.devRef .tc main_v1) = _
  after_results_simp <;> rfl

theorem W3_v3 (c : Dev nD) : W3 m ρ c (Proc.devRef .tc main_v3) = (W2 m ρ c (Proc.devRef .tc main_v3)) := by
  show StableHlo.after hostOps1 (W2 m ρ c) (Proc.devRef .tc main_v3) = _
  after_results_simp <;> rfl

theorem W3_v11 (c : Dev nD) : W3 m ρ c (Proc.devRef .tc main_v11) = (W2 m ρ c (Proc.devRef .tc main_v11)) := by
  show StableHlo.after hostOps1 (W2 m ρ c) (Proc.devRef .tc main_v11) = _
  after_results_simp <;> rfl

theorem W3_v16 (c : Dev nD) : W3 m ρ c (Proc.devRef .tc main_v16) = (W2 m ρ c (Proc.devRef .tc main_v16)) := by
  show StableHlo.after hostOps1 (W2 m ρ c) (Proc.devRef .tc main_v16) = _
  after_results_simp <;> rfl

theorem W3_v17 (c : Dev nD) : W3 m ρ c (Proc.devRef .tc main_v17) = (W2 m ρ c (Proc.devRef .tc main_v17)) := by
  show StableHlo.after hostOps1 (W2 m ρ c) (Proc.devRef .tc main_v17) = _
  after_results_simp <;> rfl

theorem W3_arg9 (c : Dev nD) : W3 m ρ c (Proc.devRef .tc main_arg9) = (W2 m ρ c (Proc.devRef .tc main_arg9)) := by
  show StableHlo.after hostOps1 (W2 m ρ c) (Proc.devRef .tc main_arg9) = _
  after_results_simp <;> rfl

/-! ## After the second region -/

theorem W4_v47 (c : Dev nD) : W4 m ρ c (Proc.devRef .tc main_v47) = feat2 m c := by
  have f : (dat1 (F := Ideal) (V3 m ρ) c).arrAt 5 cfg1.N
      = Sage.reluLayer128 (W3 m ρ c (Proc.devRef .tc main_v45)) (W3 m ρ c (Proc.devRef .tc main_v32)) (W3 m ρ c (Proc.devRef .tc main_v14)) (W3 m ρ c (Proc.devRef .tc main_v15)) (fun j => (W3 m ρ c (Proc.devRef .tc main_v46)) (ix2 (0 : Fin 1) j)) :=
    Region.final1 (V3 m ρ) c
  rw [W3_v45, W3_v32, W3_v14, W3_v15, W3_v46, W2_v32, W2_v1, W2_v3, W2_v11, W2_v14, W2_v15, W2_arg6,
    W1_v1, W1_v3, W1_v11, W1_v14, W1_v15, W1_arg6] at f
  exact (W4_arr m ρ c 5).trans f

theorem W4_v1 (c : Dev nD) : W4 m ρ c (Proc.devRef .tc main_v1) = W3 m ρ c (Proc.devRef .tc main_v1) :=
  W4_of_ne m ρ c main_v1 (by decide)

theorem W4_v3 (c : Dev nD) : W4 m ρ c (Proc.devRef .tc main_v3) = W3 m ρ c (Proc.devRef .tc main_v3) :=
  W4_of_ne m ρ c main_v3 (by decide)

theorem W4_v11 (c : Dev nD) : W4 m ρ c (Proc.devRef .tc main_v11) = W3 m ρ c (Proc.devRef .tc main_v11) :=
  W4_of_ne m ρ c main_v11 (by decide)

theorem W4_v16 (c : Dev nD) : W4 m ρ c (Proc.devRef .tc main_v16) = W3 m ρ c (Proc.devRef .tc main_v16) :=
  W4_of_ne m ρ c main_v16 (by decide)

theorem W4_v17 (c : Dev nD) : W4 m ρ c (Proc.devRef .tc main_v17) = W3 m ρ c (Proc.devRef .tc main_v17) :=
  W4_of_ne m ρ c main_v17 (by decide)

theorem W4_arg9 (c : Dev nD) : W4 m ρ c (Proc.devRef .tc main_arg9) = W3 m ρ c (Proc.devRef .tc main_arg9) :=
  W4_of_ne m ρ c main_arg9 (by decide)

/-! ## What the third region finds -/

theorem W5_v60 (c : Dev nD) : W5 m ρ c (Proc.devRef .tc main_v60) = mean128 (W4 m ρ c (Proc.devRef .tc main_v47)) (W4 m ρ c (Proc.devRef .tc main_v1)) (W4 m ρ c (Proc.devRef .tc main_v3)) (W4 m ρ c (Proc.devRef .tc main_v11)) := by
  show StableHlo.after hostOps2 (W4 m ρ c) (Proc.devRef .tc main_v60) = _
  after_results_simp <;> rfl

theorem W5_v47 (c : Dev nD) : W5 m ρ c (Proc.devRef .tc main_v47) = (W4 m ρ c (Proc.devRef .tc main_v47)) := by
  show StableHlo.after hostOps2 (W4 m ρ c) (Proc.devRef .tc main_v47) = _
  after_results_simp <;> rfl

theorem W5_v16 (c : Dev nD) : W5 m ρ c (Proc.devRef .tc main_v16) = (W4 m ρ c (Proc.devRef .tc main_v16)) := by
  show StableHlo.after hostOps2 (W4 m ρ c) (Proc.devRef .tc main_v16) = _
  after_results_simp <;> rfl

theorem W5_v17 (c : Dev nD) : W5 m ρ c (Proc.devRef .tc main_v17) = (W4 m ρ c (Proc.devRef .tc main_v17)) := by
  show StableHlo.after hostOps2 (W4 m ρ c) (Proc.devRef .tc main_v17) = _
  after_results_simp <;> rfl

theorem W5_v61 (c : Dev nD) : W5 m ρ c (Proc.devRef .tc main_v61) = biasRow (W4 m ρ c (Proc.devRef .tc main_arg9)) := by
  show StableHlo.after hostOps2 (W4 m ρ c) (Proc.devRef .tc main_v61) = _
  after_results_simp <;> rfl

/-! ## The result -/

/-- The result buffer after the last region holds the third layer's output. -/
theorem result_eq (c : Dev nD) : W6 m ρ c (Proc.devRef .tc main_v62) = feat3 m c := by
  have f : (dat2 (F := Ideal) (V5 m ρ) c).arrAt 5 cfg2.N
      = Sage.linLayer128 (W5 m ρ c (Proc.devRef .tc main_v60)) (W5 m ρ c (Proc.devRef .tc main_v47)) (W5 m ρ c (Proc.devRef .tc main_v16)) (W5 m ρ c (Proc.devRef .tc main_v17)) (fun j => (W5 m ρ c (Proc.devRef .tc main_v61)) (ix2 (0 : Fin 1) j)) :=
    Region.final2 (V5 m ρ) c
  rw [W5_v60, W5_v47, W5_v16, W5_v17, W5_v61, W4_v47, W4_v1, W4_v3, W4_v11, W4_v16, W4_v17, W4_arg9,
    W3_v1, W3_v3, W3_v11, W3_v16, W3_v17, W3_arg9, W2_v1, W2_v3, W2_v11, W2_v16, W2_v17, W2_arg9,
    W1_v1, W1_v3, W1_v11, W1_v16, W1_v17, W1_arg9] at f
  exact (W6_arr m ρ c 5).trans f

end Cert.KernelIdeal.Glue

end
-- ==== Proof.RefLayer0.lean ====
import proofs.«179428_j33517924778074_1_alg».proof.Proof.Gen.ReferenceIdeal.Read
import proofs.«179428_j33517924778074_1_alg».proof.Proof.Spec
import Idealize.ShloMosaic.Lib.ValueIdx
import Idealize.ShloMosaic.PureOps.Ideal.Laws

noncomputable section

namespace Cert.ReferenceIdeal.Layer

open Cert.ReferenceIdeal Cert.ReferenceIdeal.Read Idealize.ShloMosaic Idealize.ShloMosaic.ValueIdx

/-! ### Where the first layer's operations read: each composed index function, at an index given by its coordinates -/

/-- The first product reads row `p` of the mean. -/
theorem lidx24_ix (p : Fin 50000) (q : Fin 128) (k : Fin 64) : lidx_main_v24 (ix2 p q) k = ix2 p k :=
  funext fun a => Fin.ext (by match a with | ⟨0, _⟩ => rfl | ⟨1, _⟩ => rfl)

/-- The first product reads column `q` of the transposed left weight. -/
theorem ridx24_ix (p : Fin 50000) (q : Fin 128) (k : Fin 64) : ridx_main_v24 (ix2 p q) k = ix2 k q :=
  funext fun a => Fin.ext (by match a with | ⟨0, _⟩ => rfl | ⟨1, _⟩ => rfl)

/-- The second product reads row `p` of the features. -/
theorem lidx29_ix (p : Fin 50000) (q : Fin 128) (k : Fin 64) : lidx_main_v29 (ix2 p q) k = ix2 p k :=
  funext fun a => Fin.ext (by match a with | ⟨0, _⟩ => rfl | ⟨1, _⟩ => rfl)

/-- The second product reads column `q` of the transposed right weight. -/
theorem ridx29_ix (p : Fin 50000) (q : Fin 128) (k : Fin 64) : ridx_main_v29 (ix2 p q) k = ix2 k q :=
  funext fun a => Fin.ext (by match a with | ⟨0, _⟩ => rfl | ⟨1, _⟩ => rfl)

/-- The two broadcasts of the bias read its entry `q`. -/
theorem idx25_26_ix (p : Fin 50000) (q : Fin 128) : idx_main_v25 (idx_main_v26 (ix2 p q)) = ix1 q :=
  funext fun a => Fin.ext (by match a with | ⟨0, _⟩ => rfl)

/-- The sum of squares of row `p`, read through its broadcast to one column, runs over that row's entries. -/
theorem idxc0_ix (p : Fin 50000) (z : Fin 1) (k : Fin 128) :
    idx_main_call0_v1 (idx_main_call0_v2 (ix2 p z)) k = ix2 p k :=
  funext fun a => Fin.ext (by match a with | ⟨0, _⟩ => rfl | ⟨1, _⟩ => rfl)

/-- The broadcast of the clamped norm over the row reads the row's one entry. -/
theorem idx34_ix (p : Fin 50000) (q : Fin 128) : idx_main_v34 (ix2 p q) = ix2 p (0 : Fin 1) :=
  funext fun a => Fin.ext (by match a with | ⟨0, _⟩ => rfl | ⟨1, _⟩ => rfl)

section
variable (x0 : (⟨S50000x64, .f32⟩ : BufTy).Contents (Elt Ideal)) (x1 : (⟨S2x800000, .i32⟩ : BufTy).Contents (Elt Ideal))
  (x2 : (⟨S128x64, .f32⟩ : BufTy).Contents (Elt Ideal)) (x3 : (⟨S128, .f32⟩ : BufTy).Contents (Elt Ideal))
  (x4 : (⟨S128x64, .f32⟩ : BufTy).Contents (Elt Ideal))

/-- The pre-activation of row `p`, column `j`: the reference adds the bias to the first product and then the second
    product; the shared row adds the two products and then the bias. Addition is commutative and associative. -/
theorem pre0_at (p : Fin 50000) (j : Fin 128) :
    val_main_v30 (F := Ideal) x0 x1 x2 x3 x4 (ix2 p j)
      = Sage.preRow 64 (fun k => val_main_v22 (F := Ideal) x0 x1 (ix2 p k)) (fun k => x0 (ix2 p k))
          (fun k j => val_main_v23 (F := Ideal) x2 (ix2 k j)) (fun k j => val_main_v28 (F := Ideal) x4 (ix2 k j))
          (fun j => x3 (ix1 j)) j := by
  rw [val_main_v30_apply, val_main_v27_apply, val_main_v24_apply, val_main_v29_apply, val_main_v26_apply,
    val_main_v25_apply]
  simp only [Ideal.addf_def, lidx24_ix, ridx24_ix, lidx29_ix, ridx29_ix, idx25_26_ix]
  unfold Sage.preRow
  exact add_right_comm _ _ _

/-- The clamped norm of row `p`: the root of the sum of the squared pre-activations (the sum starts from the zero
    word, which is zero), clamped from below by ε. -/
theorem norm0_at (p : Fin 50000) :
    val_main_v33 (F := Ideal) x0 x1 x2 x3 x4 (ix2 p (0 : Fin 1))
      = Sage.normRow (Sage.preRow 64 (fun k => val_main_v22 (F := Ideal) x0 x1 (ix2 p k)) (fun k => x0 (ix2 p k))
          (fun k j => val_main_v23 (F := Ideal) x2 (ix2 k j)) (fun k j => val_main_v28 (F := Ideal) x4 (ix2 k j))
          (fun j => x3 (ix1 j))) := by
  rw [val_main_v33_apply, val_main_v31_apply, val_main_call0_v2_apply, val_main_call0_v1_apply, val_main_v32_apply,
    val_main_cst_4_apply, val_main_call0_cst_apply]
  simp only [Ideal.maximumf_def, Ideal.hostUnary_sqrt_def, Ideal.ofBits_def]
  unfold Sage.normRow
  refine congrArg (fun s => max (Ideal.sqrt s) (Ideal.ofBits .f32 0x2B8CBCCC#32)) ?_
  rw [Ideal.ofBits_zero_f32, zero_add]
  refine Finset.sum_congr rfl fun k _ => ?_
  rw [idxc0_ix, val_main_call0_v0_apply, pre0_at]
  exact Ideal.mulf_def _ _

end

/-- The reference's first layer, after its clamp at zero, is the hidden layer's function of its own mean
    (`val_main_v22`), the features, the two transposed weights and the bias: its pre-activation groups the bias with the
    first product, which is the same sum. -/
theorem layer0_eq (x0 : (⟨S50000x64, .f32⟩ : BufTy).Contents (Elt Ideal)) (x1 : (⟨S2x800000, .i32⟩ : BufTy).Contents (Elt Ideal)) (x2 : (⟨S128x64, .f32⟩ : BufTy).Contents (Elt Ideal))
    (x3 : (⟨S128, .f32⟩ : BufTy).Contents (Elt Ideal)) (x4 : (⟨S128x64, .f32⟩ : BufTy).Contents (Elt Ideal)) :
    val_main_v36 (F := Ideal) x0 x1 x2 x3 x4
      = Sage.reluLayer64 (val_main_v22 (F := Ideal) x0 x1) x0 (val_main_v23 (F := Ideal) x2) (val_main_v28 (F := Ideal) x4)
          (fun j => x3 (ix1 j)) := by
  funext i
  obtain ⟨p, q, rfl⟩ : ∃ (p : Fin 50000) (q : Fin 128), i = ix2 p q := ⟨i 0, i 1, eq_ix2 i⟩
  rw [val_main_v36_apply, val_main_call1_v0_apply, val_main_call1_cst_apply, val_main_v35_apply, val_main_v34_apply,
    idx34_ix, norm0_at, pre0_at]
  unfold Sage.reluLayer64 Sage.reluRow Sage.linRow
  rfl

end Cert.ReferenceIdeal.Layer

end
-- ==== Proof.RefLayer1.lean ====
import proofs.«179428_j33517924778074_1_alg».proof.Proof.Gen.ReferenceIdeal.Read
import proofs.«179428_j33517924778074_1_alg».proof.Proof.Spec
import Idealize.ShloMosaic.Lib.ValueIdx
import Idealize.ShloMosaic.PureOps.Ideal.Laws

noncomputable section

namespace Cert.ReferenceIdeal.Layer

open Cert.ReferenceIdeal Cert.ReferenceIdeal.Read Idealize.ShloMosaic Idealize.ShloMosaic.ValueIdx

/-! ### Where the second layer's operations read: each composed index function, at an index given by its coordinates -/

/-- The first product reads row `p` of the mean. -/
theorem lidx57_ix (p : Fin 50000) (q : Fin 128) (k : Fin 128) : lidx_main_v57 (ix2 p q) k = ix2 p k :=
  funext fun a => Fin.ext (by match a with | ⟨0, _⟩ => rfl | ⟨1, _⟩ => rfl)

/-- The first product reads column `q` of the transposed left weight. -/
theorem ridx57_ix (p : Fin 50000) (q : Fin 128) (k : Fin 128) : ridx_main_v57 (ix2 p q) k = ix2 k q :=
  funext fun a => Fin.ext (by match a with | ⟨0, _⟩ => rfl | ⟨1, _⟩ => rfl)

/-- The second product reads row `p` of the previous layer's output. -/
theorem lidx62_ix (p : Fin 50000) (q : Fin 128) (k : Fin 128) : lidx_main_v62 (ix2 p q) k = ix2 p k :=
  funext fun a => Fin.ext (by match a with | ⟨0, _⟩ => rfl | ⟨1, _⟩ => rfl)

/-- The second product reads column `q` of the transposed right weight. -/
theorem ridx62_ix (p : Fin 50000) (q : Fin 128) (k : Fin 128) : ridx_main_v62 (ix2 p q) k = ix2 k q :=
  funext fun a => Fin.ext (by match a with | ⟨0, _⟩ => rfl | ⟨1, _⟩ => rfl)

/-- The two broadcasts of the bias read its entry `q`. -/
theorem idx58_59_ix (p : Fin 50000) (q : Fin 128) : idx_main_v58 (idx_main_v59 (ix2 p q)) = ix1 q :=
  funext fun a => Fin.ext (by match a with | ⟨0, _⟩ => rfl)

/-- The sum of squares of row `p`, read through its broadcast to one column, runs over that row's entries. -/
theorem idxc2_ix (p : Fin 50000) (z : Fin 1) (k : Fin 128) :
    idx_main_call2_v1 (idx_main_call2_v2 (ix2 p z)) k = ix2 p k :=
  funext fun a => Fin.ext (by match a with | ⟨0, _⟩ => rfl | ⟨1, _⟩ => rfl)

/-- The broadcast of the clamped norm over the row reads the row's one entry. -/
theorem idx67_ix (p : Fin 50000) (q : Fin 128) : idx_main_v67 (ix2 p q) = ix2 p (0 : Fin 1) :=
  funext fun a => Fin.ext (by match a with | ⟨0, _⟩ => rfl | ⟨1, _⟩ => rfl)

section
variable
  (x0 : (⟨S50000x64, .f32⟩ : BufTy).Contents (Elt Ideal)) (x1 : (⟨S2x800000, .i32⟩ : BufTy).Contents (Elt Ideal))
  (x2 : (⟨S128x64, .f32⟩ : BufTy).Contents (Elt Ideal)) (x3 : (⟨S128, .f32⟩ : BufTy).Contents (Elt Ideal))
  (x4 : (⟨S128x64, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))

/-- The pre-activation of row `p`, column `j`: the reference adds the bias to the first product and then the second
    product; the shared row adds the two products and then the bias. Addition is commutative and associative. -/
theorem pre1_at (p : Fin 50000) (j : Fin 128) :
    val_main_v63 (F := Ideal) x0 x1 x2 x3 x4 x5 x6 x7 (ix2 p j)
      = Sage.preRow 128 (fun k => val_main_v55 (F := Ideal) x0 x1 x2 x3 x4 (ix2 p k)) (fun k => val_main_v36 (F := Ideal) x0 x1 x2 x3 x4 (ix2 p k))
          (fun k j => val_main_v56 (F := Ideal) x5 (ix2 k j)) (fun k j => val_main_v61 (F := Ideal) x7 (ix2 k j))
          (fun j => x6 (ix1 j)) j := by
  rw [val_main_v63_apply, val_main_v60_apply, val_main_v57_apply, val_main_v62_apply, val_main_v59_apply,
    val_main_v58_apply]
  simp only [Ideal.addf_def, lidx57_ix, ridx57_ix, lidx62_ix, ridx62_ix, idx58_59_ix]
  unfold Sage.preRow
  exact add_right_comm _ _ _

/-- The clamped norm of row `p`: the root of the sum of the squared pre-activations (the sum starts from the zero
    word, which is zero), clamped from below by ε. -/
theorem norm1_at (p : Fin 50000) :
    val_main_v66 (F := Ideal) x0 x1 x2 x3 x4 x5 x6 x7 (ix2 p (0 : Fin 1))
      = Sage.normRow (Sage.preRow 128 (fun k => val_main_v55 (F := Ideal) x0 x1 x2 x3 x4 (ix2 p k)) (fun k => val_main_v36 (F := Ideal) x0 x1 x2 x3 x4 (ix2 p k))
          (fun k j => val_main_v56 (F := Ideal) x5 (ix2 k j)) (fun k j => val_main_v61 (F := Ideal) x7 (ix2 k j))
          (fun j => x6 (ix1 j))) := by
  rw [val_main_v66_apply, val_main_v64_apply, val_main_call2_v2_apply, val_main_call2_v1_apply, val_main_v65_apply,
    val_main_cst_11_apply, val_main_call2_cst_apply]
  simp only [Ideal.maximumf_def, Ideal.hostUnary_sqrt_def, Ideal.ofBits_def]
  unfold Sage.normRow
  refine congrArg (fun s => max (Ideal.sqrt s) (Ideal.ofBits .f32 0x2B8CBCCC#32)) ?_
  rw [Ideal.ofBits_zero_f32, zero_add]
  refine Finset.sum_congr rfl fun k _ => ?_
  rw [idxc2_ix, val_main_call2_v0_apply, pre1_at]
  exact Ideal.mulf_def _ _

end

/-- The reference's second layer, after its clamp at zero, is the hidden layer's function of its own mean
    (`val_main_v55`), the first layer's output, the two transposed weights and the bias. -/
theorem layer1_eq (x0 : (⟨S50000x64, .f32⟩ : BufTy).Contents (Elt Ideal)) (x1 : (⟨S2x800000, .i32⟩ : BufTy).Contents (Elt Ideal)) (x2 : (⟨S128x64, .f32⟩ : BufTy).Contents (Elt Ideal)) (x3 : (⟨S128, .f32⟩ : BufTy).Contents (Elt Ideal)) (x4 : (⟨S128x64, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v69 (F := Ideal) x0 x1 x2 x3 x4 x5 x6 x7
      = Sage.reluLayer128 (val_main_v55 (F := Ideal) x0 x1 x2 x3 x4) (val_main_v36 (F := Ideal) x0 x1 x2 x3 x4) (val_main_v56 (F := Ideal) x5) (val_main_v61 (F := Ideal) x7)
          (fun j => x6 (ix1 j)) := by
  funext i
  obtain ⟨p, q, rfl⟩ : ∃ (p : Fin 50000) (q : Fin 128), i = ix2 p q := ⟨i 0, i 1, eq_ix2 i⟩
  rw [val_main_v69_apply, val_main_call3_v0_apply, val_main_call3_cst_apply, val_main_v68_apply, val_main_v67_apply,
    idx67_ix, norm1_at, pre1_at]
  unfold Sage.reluLayer128 Sage.reluRow Sage.linRow
  rfl

end Cert.ReferenceIdeal.Layer

end
-- ==== Proof.RefLayer2.lean ====
import proofs.«179428_j33517924778074_1_alg».proof.Proof.Gen.ReferenceIdeal.Read
import proofs.«179428_j33517924778074_1_alg».proof.Proof.Spec
import Idealize.ShloMosaic.Lib.ValueIdx
import Idealize.ShloMosaic.PureOps.Ideal.Laws

noncomputable section

namespace Cert.ReferenceIdeal.Layer

open Cert.ReferenceIdeal Cert.ReferenceIdeal.Read Idealize.ShloMosaic Idealize.ShloMosaic.ValueIdx

/-! ### Where the last layer's operations read: each composed index function, at an index given by its coordinates -/

/-- The first product reads row `p` of the mean. -/
theorem lidx90_ix (p : Fin 50000) (q : Fin 128) (k : Fin 128) : lidx_main_v90 (ix2 p q) k = ix2 p k :=
  funext fun a => Fin.ext (by match a with | ⟨0, _⟩ => rfl | ⟨1, _⟩ => rfl)

/-- The first product reads column `q` of the transposed left weight. -/
theorem ridx90_ix (p : Fin 50000) (q : Fin 128) (k : Fin 128) : ridx_main_v90 (ix2 p q) k = ix2 k q :=
  funext fun a => Fin.ext (by match a with | ⟨0, _⟩ => rfl | ⟨1, _⟩ => rfl)

/-- The second product reads row `p` of the previous layer's output. -/
theorem lidx95_ix (p : Fin 50000) (q : Fin 128) (k : Fin 128) : lidx_main_v95 (ix2 p q) k = ix2 p k :=
  funext fun a => Fin.ext (by match a with | ⟨0, _⟩ => rfl | ⟨1, _⟩ => rfl)

/-- The second product reads column `q` of the transposed right weight. -/
theorem ridx95_ix (p : Fin 50000) (q : Fin 128) (k : Fin 128) : ridx_main_v95 (ix2 p q) k = ix2 k q :=
  funext fun a => Fin.ext (by match a with | ⟨0, _⟩ => rfl | ⟨1, _⟩ => rfl)

/-- The two broadcasts of the bias read its entry `q`. -/
theorem idx91_92_ix (p : Fin 50000) (q : Fin 128) : idx_main_v91 (idx_main_v92 (ix2 p q)) = ix1 q :=
  funext fun a => Fin.ext (by match a with | ⟨0, _⟩ => rfl)

/-- The sum of squares of row `p`, read through its broadcast to one column, runs over that row's entries. -/
theorem idxc4_ix (p : Fin 50000) (z : Fin 1) (k : Fin 128) :
    idx_main_call4_v1 (idx_main_call4_v2 (ix2 p z)) k = ix2 p k :=
  funext fun a => Fin.ext (by match a with | ⟨0, _⟩ => rfl | ⟨1, _⟩ => rfl)

/-- The broadcast of the clamped norm over the row reads the row's one entry. -/
theorem idx100_ix (p : Fin 50000) (q : Fin 128) : idx_main_v100 (ix2 p q) = ix2 p (0 : Fin 1) :=
  funext fun a => Fin.ext (by match a with | ⟨0, _⟩ => rfl | ⟨1, _⟩ => rfl)

section
variable
  (x0 : (⟨S50000x64, .f32⟩ : BufTy).Contents (Elt Ideal)) (x1 : (⟨S2x800000, .i32⟩ : BufTy).Contents (Elt Ideal))
  (x2 : (⟨S128x64, .f32⟩ : BufTy).Contents (Elt Ideal)) (x3 : (⟨S128, .f32⟩ : BufTy).Contents (Elt Ideal))
  (x4 : (⟨S128x64, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal))

/-- The pre-activation of row `p`, column `j`: the reference adds the bias to the first product and then the second
    product; the shared row adds the two products and then the bias. Addition is commutative and associative. -/
theorem pre2_at (p : Fin 50000) (j : Fin 128) :
    val_main_v96 (F := Ideal) x0 x1 x2 x3 x4 x5 x6 x7 x8 x9 x10 (ix2 p j)
      = Sage.preRow 128 (fun k => val_main_v88 (F := Ideal) x0 x1 x2 x3 x4 x5 x6 x7 (ix2 p k)) (fun k => val_main_v69 (F := Ideal) x0 x1 x2 x3 x4 x5 x6 x7 (ix2 p k))
          (fun k j => val_main_v89 (F := Ideal) x8 (ix2 k j)) (fun k j => val_main_v94 (F := Ideal) x10 (ix2 k j))
          (fun j => x9 (ix1 j)) j := by
  rw [val_main_v96_apply, val_main_v93_apply, val_main_v90_apply, val_main_v95_apply, val_main_v92_apply,
    val_main_v91_apply]
  simp only [Ideal.addf_def, lidx90_ix, ridx90_ix, lidx95_ix, ridx95_ix, idx91_92_ix]
  unfold Sage.preRow
  exact add_right_comm _ _ _

/-- The clamped norm of row `p`: the root of the sum of the squared pre-activations (the sum starts from the zero
    word, which is zero), clamped from below by ε. -/
theorem norm2_at (p : Fin 50000) :
    val_main_v99 (F := Ideal) x0 x1 x2 x3 x4 x5 x6 x7 x8 x9 x10 (ix2 p (0 : Fin 1))
      = Sage.normRow (Sage.preRow 128 (fun k => val_main_v88 (F := Ideal) x0 x1 x2 x3 x4 x5 x6 x7 (ix2 p k)) (fun k => val_main_v69 (F := Ideal) x0 x1 x2 x3 x4 x5 x6 x7 (ix2 p k))
          (fun k j => val_main_v89 (F := Ideal) x8 (ix2 k j)) (fun k j => val_main_v94 (F := Ideal) x10 (ix2 k j))
          (fun j => x9 (ix1 j))) := by
  rw [val_main_v99_apply, val_main_v97_apply, val_main_call4_v2_apply, val_main_call4_v1_apply, val_main_v98_apply,
    val_main_cst_18_apply, val_main_call4_cst_apply]
  simp only [Ideal.maximumf_def, Ideal.hostUnary_sqrt_def, Ideal.ofBits_def]
  unfold Sage.normRow
  refine congrArg (fun s => max (Ideal.sqrt s) (Ideal.ofBits .f32 0x2B8CBCCC#32)) ?_
  rw [Ideal.ofBits_zero_f32, zero_add]
  refine Finset.sum_congr rfl fun k _ => ?_
  rw [idxc4_ix, val_main_call4_v0_apply, pre2_at]
  exact Ideal.mulf_def _ _

end

/-- The reference's last layer is the unclamped layer's function of its own mean (`val_main_v88`), the second layer's
    output, the two transposed weights and the bias. -/
theorem layer2_eq (x0 : (⟨S50000x64, .f32⟩ : BufTy).Contents (Elt Ideal)) (x1 : (⟨S2x800000, .i32⟩ : BufTy).Contents (Elt Ideal)) (x2 : (⟨S128x64, .f32⟩ : BufTy).Contents (Elt Ideal)) (x3 : (⟨S128, .f32⟩ : BufTy).Contents (Elt Ideal)) (x4 : (⟨S128x64, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) :
    val_main_v101 (F := Ideal) x0 x1 x2 x3 x4 x5 x6 x7 x8 x9 x10
      = Sage.linLayer128 (val_main_v88 (F := Ideal) x0 x1 x2 x3 x4 x5 x6 x7) (val_main_v69 (F := Ideal) x0 x1 x2 x3 x4 x5 x6 x7) (val_main_v89 (F := Ideal) x8) (val_main_v94 (F := Ideal) x10)
          (fun j => x9 (ix1 j)) := by
  funext i
  obtain ⟨p, q, rfl⟩ : ∃ (p : Fin 50000) (q : Fin 128), i = ix2 p q := ⟨i 0, i 1, eq_ix2 i⟩
  rw [val_main_v101_apply, val_main_v100_apply, idx100_ix, norm2_at, pre2_at]
  unfold Sage.linLayer128 Sage.linRow
  rfl

end Cert.ReferenceIdeal.Layer

end
-- ==== Proof.Bridge.lean ====
/-
  Where the two programs meet.

  Both run the same host lines on the edge list (source and target rows, the wrapped source index, the gather of the
  source rows and their sum at the target nodes, the in-degree) — printed twice, once per program, so those terms are
  equal by unfolding. They differ in the mean: one multiplies the neighbour sum by the reciprocal of the in-degree
  clamped from below by one, the other divides by the clamped in-degree; the clamp is at least one, so not zero, and
  off zero the quotient is the product with the inverse on all of the extended reals. With equal means and equal
  features each layer is the same row function on both sides, and the three layers follow one from the other.
-/
import proofs.«179428_j33517924778074_1_alg».proof.Proof.KHost
import proofs.«179428_j33517924778074_1_alg».proof.Proof.Gen.ReferenceIdeal.Read
import proofs.«179428_j33517924778074_1_alg».proof.Proof.Spec
import proofs.«179428_j33517924778074_1_alg».proof.Proof.RefLayer0
import proofs.«179428_j33517924778074_1_alg».proof.Proof.RefLayer1
import proofs.«179428_j33517924778074_1_alg».proof.Proof.RefLayer2
import Idealize.ShloMosaic.Lib.IdealHost
import Idealize.ShloMosaic.Lib.Pipeline.Value
import Idealize.ShloMosaic.Lib.ValueIdx

noncomputable section

namespace Cert.Bridge

open Idealize.ShloMosaic Idealize.ShloMosaic.ValueIdx
open Cert.KernelIdeal.Glue
open Cert.ReferenceIdeal.Read

set_option maxRecDepth 16384

abbrev Edges := (⟨Cert.ReferenceIdeal.S2x800000, .i32⟩ : BufTy).Contents (Elt Ideal)

/-! ## The node vector spread over the columns, read at an entry -/

/-- Entry (p, k) of a node vector spread over 64 columns is the vector's entry p. -/
theorem spread64_at (v : NodeVec) (p : Fin 50000) (k : Fin 64) : spread64 v (ix2 p k) = v (ix1 p) := by
  unfold spread64
  refine (broadcastInDim_apply _ _ _ (ix2 p k) (ix2 p (0 : Fin 1)) (fun a => match a with
    | ⟨0, _⟩ => by show p.val = if (50000 : Nat) = 1 then 0 else p.val; rw [if_neg (by decide)]
    | ⟨1, _⟩ => by show 0 = if (1 : Nat) = 1 then 0 else k.val; rw [if_pos rfl])).trans ?_
  exact broadcastInDim_apply _ _ v (ix2 p (0 : Fin 1)) (ix1 p) (fun a => match a with
    | ⟨0, _⟩ => by show p.val = if (50000 : Nat) = 1 then 0 else p.val; rw [if_neg (by decide)])

/-- Entry (p, k) of a node vector spread over 128 columns is the vector's entry p. -/
theorem spread128_at (v : NodeVec) (p : Fin 50000) (k : Fin 128) : spread128 v (ix2 p k) = v (ix1 p) := by
  unfold spread128
  refine (broadcastInDim_apply _ _ _ (ix2 p k) (ix2 p (0 : Fin 1)) (fun a => match a with
    | ⟨0, _⟩ => by show p.val = if (50000 : Nat) = 1 then 0 else p.val; rw [if_neg (by decide)]
    | ⟨1, _⟩ => by show 0 = if (1 : Nat) = 1 then 0 else k.val; rw [if_pos rfl])).trans ?_
  exact broadcastInDim_apply _ _ v (ix2 p (0 : Fin 1)) (ix1 p) (fun a => match a with
    | ⟨0, _⟩ => by show p.val = if (50000 : Nat) = 1 then 0 else p.val; rw [if_neg (by decide)])

/-- The constant-one node vector is one at every node. -/
theorem nodeOnes_at (p : Fin 50000) : nodeOnes (ix1 p) = 1 := by
  unfold nodeOnes
  refine (broadcastInDim_apply _ _ _ (ix1 p) ix0 (fun a => a.elim0)).trans ?_
  exact Ideal.ofBits_one_f32

/-! ## The mean: a product with the reciprocal of the clamped degree is the quotient by it -/

/-- Row by row, multiplying by `1 / max(deg, 1)` is dividing by `max(deg, 1)`: the clamped degree is not zero. -/
theorem mul_recip_eq_div64 (a : FVec Ideal Cert.KernelIdeal.S50000x64 .f32) (g : NodeVec) :
    mulf a (spread64 (Host.divf (F := Ideal) nodeOnes (maximumf g nodeOnes))) = Host.divf (F := Ideal) a (spread64 (maximumf g nodeOnes)) := by
  funext i
  obtain ⟨p, k, rfl⟩ : ∃ (p : Fin 50000) (k : Fin 64), i = ix2 p k := ⟨i 0, i 1, eq_ix2 i⟩
  show a (ix2 p k) * spread64 (Host.divf (F := Ideal) nodeOnes (maximumf g nodeOnes)) (ix2 p k)
    = Ideal.div (a (ix2 p k)) (spread64 (maximumf g nodeOnes) (ix2 p k))
  rw [spread64_at, spread64_at]
  show a (ix2 p k) * Ideal.div (nodeOnes (ix1 p)) (max (g (ix1 p)) (nodeOnes (ix1 p))) = Ideal.div (a (ix2 p k)) (max (g (ix1 p)) (nodeOnes (ix1 p)))
  rw [nodeOnes_at]
  exact Sage.mul_div_one _ _ (Sage.max_one_ne_zero _)

theorem mul_recip_eq_div128 (a : FVec Ideal Cert.KernelIdeal.S50000x128 .f32) (g : NodeVec) :
    mulf a (spread128 (Host.divf (F := Ideal) nodeOnes (maximumf g nodeOnes))) = Host.divf (F := Ideal) a (spread128 (maximumf g nodeOnes)) := by
  funext i
  obtain ⟨p, k, rfl⟩ : ∃ (p : Fin 50000) (k : Fin 128), i = ix2 p k := ⟨i 0, i 1, eq_ix2 i⟩
  show a (ix2 p k) * spread128 (Host.divf (F := Ideal) nodeOnes (maximumf g nodeOnes)) (ix2 p k)
    = Ideal.div (a (ix2 p k)) (spread128 (maximumf g nodeOnes) (ix2 p k))
  rw [spread128_at, spread128_at]
  show a (ix2 p k) * Ideal.div (nodeOnes (ix1 p)) (max (g (ix1 p)) (nodeOnes (ix1 p))) = Ideal.div (a (ix2 p k)) (max (g (ix1 p)) (nodeOnes (ix1 p)))
  rw [nodeOnes_at]
  exact Sage.mul_div_one _ _ (Sage.max_one_ne_zero _)

/-! ## The reference's means are the quotient forms of the same neighbour sums (the same lines, printed twice) -/

/-- The reference's mean of 128-wide features `h`. -/
def refMean128 (h : FVec Ideal Cert.KernelIdeal.S50000x128 .f32) (e : Edges) : FVec Ideal Cert.KernelIdeal.S50000x128 .f32 :=
  Host.divf (F := Ideal) (nbrSum128 h (srcOf e) (dstOf e)) (spread128 (maximumf (degree (dstOf e)) nodeOnes))

theorem mean64_eq (h : FVec Ideal Cert.KernelIdeal.S50000x64 .f32) (e : Edges) :
    mean64 h (srcOf e) (dstOf e) (recipDeg (dstOf e)) = val_main_v22 (F := Ideal) h e :=
  (mul_recip_eq_div64 (nbrSum64 h (srcOf e) (dstOf e)) (degree (dstOf e))).trans rfl

theorem mean128_eq (h : FVec Ideal Cert.KernelIdeal.S50000x128 .f32) (e : Edges) :
    mean128 h (srcOf e) (dstOf e) (recipDeg (dstOf e)) = refMean128 h e :=
  mul_recip_eq_div128 (nbrSum128 h (srcOf e) (dstOf e)) (degree (dstOf e))

theorem refMean1 (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S128x64, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) :
    val_main_v55 (F := Ideal) x0 x1 x2 x3 x4 = refMean128 (val_main_v36 (F := Ideal) x0 x1 x2 x3 x4) x1 := rfl

theorem refMean2 (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S128x64, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) :
    val_main_v88 (F := Ideal) x0 x1 x2 x3 x4 x5 x6 x7 = refMean128 (val_main_v69 (F := Ideal) x0 x1 x2 x3 x4 x5 x6 x7) x1 := rfl

/-! ## The bias row read at its one row -/

theorem biasRow_at (b : FVec Ideal Cert.KernelIdeal.S128 .f32) (j : Fin 128) : biasRow b (ix2 (0 : Fin 1) j) = b (ix1 j) := by
  unfold biasRow
  refine (shapeCast_addUnit_apply ![128] b _ (ix2 (0 : Fin 1) j)).trans ?_
  refine congrArg b (funext fun a => ?_)
  match a with
  | ⟨0, _⟩ => rfl

/-! ## The three layers agree -/

section Layers

open Idealize.ShloMosaic.TcCoe Idealize.SL.Sem

variable (m : (ℓ : Loc Cert.KernelIdeal.nD Cert.KernelIdeal.τ Cert.KernelIdeal.sig) → Buf (Elt Ideal) ℓ)

/-- The first layer's output is the reference's first layer of the same arguments: the same row function of the same
    mean (product with the reciprocal = quotient), the same features, transposed weights and bias. -/
theorem feat1_eq (c : Dev Cert.KernelIdeal.nD) : feat1 m c = val_main_v36 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) := by
  unfold feat1
  rw [Cert.ReferenceIdeal.Layer.layer0_eq, mean64_eq]
  simp only [biasRow_at]
  rfl

/-- The second layer: the first layers agree, so the neighbour sums and the means do. -/
theorem feat2_eq (c : Dev Cert.KernelIdeal.nD) : feat2 m c = val_main_v69 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
  unfold feat2
  rw [Cert.ReferenceIdeal.Layer.layer1_eq, refMean1, feat1_eq, mean128_eq]
  simp only [biasRow_at]
  rfl

/-- The third layer: the program's result is the reference's. -/
theorem feat3_eq (c : Dev Cert.KernelIdeal.nD) : feat3 m c = val_main_v101 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  unfold feat3
  rw [Cert.ReferenceIdeal.Layer.layer2_eq, refMean2, feat2_eq, mean128_eq]
  simp only [biasRow_at]
  rfl

end Layers

end Cert.Bridge

end
-- ==== Proof.lean ====
/-
  Three layers of mean-aggregation graph convolution (GraphSAGE): the kernel against its jnp reference, over the
  extended reals.

  Each layer gathers the source nodes' feature rows along the edges, adds them up at the target nodes, turns the
  sums into means with the in-degree clamped from below by one, and then, per node, forms
  `pre = mean · Wlᵀ + h · Wrᵀ + b`, divides the row by its Euclidean norm clamped from below by ε, and (hidden layers)
  clamps at zero. The kernel does the per-node part in one fused pass over blocks of 2000 nodes, three times; the
  gather, the sums and the means are host lines in both programs.

  What differs, and why it does not matter at the exact values:
  * the kernel multiplies the sums by `1 / max(deg, 1)`, the reference divides by `max(deg, 1)`; the clamp is at least
    one, hence not zero, and off zero the quotient is the product with the inverse (Proof/Spec.lean, Proof/Bridge.lean);
  * the kernel adds the bias last, the reference between the two products: addition of extended reals is commutative
    and associative (Proof/Spec.lean `preRow_regroup`);
  * the kernel's matrix products read their operands in a narrower float format and accumulate into zero, its row sum
    is a lane reduction, its blocks are 2000 rows: at the exact values a format change is the identity, both products
    are the sum over the contracted axis, both sums the sum over the columns, and the blocks tile the array.
  No finiteness of the inputs is used: every step is an identity of the extended reals.

  The modules: Spec (one output row as a function of one mean row and one feature row), KBody0-2 (the kernel bodies'
  stored value at an entry is that row function), KRegion0-2 (so each region's output array is the layer's function of
  the arrays it finds), KernelRun (the whole program's run with its result named), KHost (the host lines between the
  regions read back to the arguments: the result is the third layer's output), RefLayer0-2 (the reference's layers are
  the same row function of its own means), Bridge (the means and hence the layers agree), and the claims below.
-/
import proofs.«179428_j33517924778074_1_alg».proof.Defs
import proofs.«179428_j33517924778074_1_alg».proof.Proof.Gen.Kernel
import proofs.«179428_j33517924778074_1_alg».proof.Proof.Gen.Kernel.Frame
import proofs.«179428_j33517924778074_1_alg».proof.Proof.Gen.KernelIdeal
import proofs.«179428_j33517924778074_1_alg».proof.Proof.Gen.KernelIdeal.Frame
import proofs.«179428_j33517924778074_1_alg».proof.Proof.Gen.ReferenceIdeal
import proofs.«179428_j33517924778074_1_alg».proof.Proof.Gen.ReferenceIdeal.Run
import proofs.«179428_j33517924778074_1_alg».proof.Proof.Gen.ReferenceIdeal.Read
import proofs.«179428_j33517924778074_1_alg».proof.Proof.Gen.Pre_finite_inputs
import proofs.«179428_j33517924778074_1_alg».proof.Proof.KernelRun
import proofs.«179428_j33517924778074_1_alg».proof.Proof.KHost
import proofs.«179428_j33517924778074_1_alg».proof.Proof.Bridge
import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre : Cert.Pre_finite_inputs.Facts]

/-- The word-level kernel runs and leaves its arguments as launched. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the third layer's output. -/
theorem algebraic : Cert.algebraic_KernelIdeal_ReferenceIdeal := by
  intro m ρ m' ρ' _ hagree
  refine ⟨fun c => Cert.KernelIdeal.Glue.feat3 m c, ?_, ?_⟩
  · exact (θ_run Cert.KernelIdeal.defs _ _).mono
      (fun r h c => ⟨(h c).1.trans (Cert.KernelIdeal.Glue.result_eq m ρ c), (h c).2⟩)
      (Cert.KernelIdeal.Whole.run_main m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v101_eq, h0, h1, h2, h3, h4, h5, h6, h7, h8, h9, h10]
    exact (Cert.Bridge.feat3_eq m c).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
